-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v15_0)) (v2 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v15_0) = v1 c
          ∧ r.2.mem ((c.tc : Thread Cert.KernelIdeal.nD Cert.KernelIdeal.τ).loc Cert.KernelIdeal.main_v15_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x1024 : Shape := ⟨3, ![128, 256, 1024]⟩
abbrev S128x512x1024 : Shape := ⟨3, ![128, 512, 1024]⟩
abbrev S128x512x2 : Shape := ⟨3, ![128, 512, 2]⟩
abbrev S128x512x1 : Shape := ⟨3, ![128, 512, 1]⟩
abbrev S2048x1024 : Shape := ⟨2, ![2048, 1024]⟩
abbrev S1024 : Shape := ⟨1, ![1024]⟩
abbrev S3072x1024 : Shape := ⟨2, ![3072, 1024]⟩
abbrev S_ : Shape := ⟨0, ![]⟩

class Facts : Prop where
  bcast_S_S128x256x1024 : S_.BroadcastsInDim S128x256x1024 (![] : Fin 0 → Fin S128x256x1024.rank)
  reducesTo_S128x256x1024_S_d0_1_2 : S128x256x1024.ReducesTo [0, 1, 2] S_
  h_S_ : 0 < S_.numel
  bcast_S_S128x512x1024 : S_.BroadcastsInDim S128x512x1024 (![] : Fin 0 → Fin S128x512x1024.rank)
  reducesTo_S128x512x1024_S_d0_1_2 : S128x512x1024.ReducesTo [0, 1, 2] S_
  bcast_S_S128x512x1 : S_.BroadcastsInDim S128x512x1 (![] : Fin 0 → Fin S128x512x1.rank)
  reducesTo_S128x512x1_S_d0_1_2 : S128x512x1.ReducesTo [0, 1, 2] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S128x512x2 : S_.BroadcastsInDim S128x512x2 (![] : Fin 0 → Fin S128x512x2.rank)
  reducesTo_S128x512x2_S_d0_1_2 : S128x512x2.ReducesTo [0, 1, 2] S_

variable [Facts]

def fn_part2 {F : FTy → Type} [FloatOps F] (main_arg3 : IVec S128x512x2 32) (main_arg8 : FVec F S1024 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_c_14 : IVec S_ 32 := constantI S_ 32 0#32
  let main_v39 : IVec S128x512x2 32 := broadcastInDim S128x512x2 ![] bcast_S_S128x512x2 main_c_14
  let main_v40 : IVec S128x512x2 1 := cmpi .sge main_arg3 main_v39
  let main_c_15 : IVec S_ 32 := constantI S_ 32 256#32
  let main_v41 : IVec S128x512x2 32 := broadcastInDim S128x512x2 ![] bcast_S_S128x512x2 main_c_15
  let main_v42 : IVec S128x512x2 1 := cmpi .slt main_arg3 main_v41
  let main_v43 : IVec S128x512x2 1 := andi main_v40 main_v42
  let main_c_16 : IVec S_ 1 := constantI S_ 1 1#1
  let main_v44 : IVec S_ 1 := (fun x v => Host.reduce IntOp.andi x v reducesTo_S128x512x2_S_d0_1_2 h_S_) main_v43 main_c_16
  let main_v45 : IVec S_ 1 := andi main_v38 main_v44
  main_v45

def fn_part1 {F : FTy → Type} [FloatOps F] (main_arg3 : IVec S128x512x2 32) (main_arg5 : FVec F S2048x1024 .f32) (main_arg6 : FVec F S1024 .f32) (main_arg7 : FVec F S3072x1024 .f32) (main_arg8 : FVec F S1024 .f32) (main_v13 : IVec S_ 1) (main_v16 : IVec S128x512x1 1) : IVec S_ 1 :=
  let main_c_5 : IVec S_ 1 := constantI S_ 1 1#1
  let main_v17 : IVec S_ 1 := (fun x v => Host.reduce IntOp.andi x v reducesTo_S128x512x1_S_d0_1_2 h_S_) main_v16 main_c_5
  let main_v18 : IVec S_ 1 := andi main_v13 main_v17
  let main_v19 : FVec F S2048x1024 .f32 := Host.absf main_arg5
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S3072x1024 .f32 := Host.absf main_arg7
  let main_cst_10 : FVec F S_ .f32 := constant S_ .f32 0x7F800000#32
  let main_v30 : FVec F S3072x1024 .f32 := broadcastInDim S3072x1024 ![] bcast_S_S3072x1024 main_cst_10
  let main_v31 : IVec S3072x1024 1 := cmpf .olt main_v29 main_v30
  let main_c_11 : IVec S_ 1 := constantI S_ 1 1#1
  let main_v32 : IVec S_ 1 := (fun x v => Host.reduce IntOp.andi x v reducesTo_S3072x1024_S_d0_1 h_S_) main_v31 main_c_11
  let main_v33 : IVec S_ 1 := andi main_v28 main_v32
  fn_part2 (F := F) main_arg3 main_arg8 main_v33

def fn {F : FTy → Type} [FloatOps F] (main_arg0 : FVec F S128x256x1024 .f32) (main_arg1 : FVec F S128x256x1024 .f32) (main_arg2 : FVec F S128x512x1024 .f32) (main_arg3 : IVec S128x512x2 32) (main_arg4 : FVec F S128x512x1 .f32) (main_arg5 : FVec F S2048x1024 .f32) (main_arg6 : FVec F S1024 .f32) (main_arg7 : FVec F S3072x1024 .f32) (main_arg8 : FVec F S1024 .f32) : IVec S_ 1 :=
  let main_v0 : FVec F S128x256x1024 .f32 := Host.absf main_arg0
  let main_cst : FVec F S_ .f32 := constant S_ .f32 0x7F800000#32
  let main_v1 : FVec F S128x256x1024 .f32 := broadcastInDim S128x256x1024 ![] bcast_S_S128x256x1024 main_cst
  let main_v2 : IVec S128x256x1024 1 := cmpf .olt main_v0 main_v1
  let main_c : IVec S_ 1 := constantI S_ 1 1#1
  let main_v3 : IVec S_ 1 := (fun x v => Host.reduce IntOp.andi x v reducesTo_S128x256x1024_S_d0_1_2 h_S_) main_v2 main_c
  let main_v4 : FVec F S128x256x1024 .f32 := Host.absf main_arg1
  let main_cst_0 : FVec F S_ .f32 := constant S_ .f32 0x7F800000#32
  let main_v5 : FVec F S128x256x1024 .f32 := broadcastInDim S128x256x1024 ![] bcast_S_S128x256x1024 main_cst_0
  let main_v6 : IVec S128x256x1024 1 := cmpf .olt main_v4 main_v5
  let main_c_1 : IVec S_ 1 := constantI S_ 1 1#1
  let main_v7 : IVec S_ 1 := (fun x v => Host.reduce IntOp.andi x v reducesTo_S128x256x1024_S_d0_1_2 h_S_) main_v6 main_c_1
  let main_v8 : IVec S_ 1 := andi main_v3 main_v7
  let main_v9 : FVec F S128x512x1024 .f32 := Host.absf main_arg2
  let main_cst_2 : FVec F S_ .f32 := constant S_ .f32 0x7F800000#32
  let main_v10 : FVec F S128x512x1024 .f32 := broadcastInDim S128x512x1024 ![] bcast_S_S128x512x1024 main_cst_2
  let main_v11 : IVec S128x512x1024 1 := cmpf .olt main_v9 main_v10
  let main_c_3 : IVec S_ 1 := constantI S_ 1 1#1
  let main_v12 : IVec S_ 1 := (fun x v => Host.reduce IntOp.andi x v reducesTo_S128x512x1024_S_d0_1_2 h_S_) main_v11 main_c_3
  let main_v13 : IVec S_ 1 := andi main_v8 main_v12
  let main_v14 : FVec F S128x512x1 .f32 := Host.absf main_arg4
  let main_cst_4 : FVec F S_ .f32 := constant S_ .f32 0x7F800000#32
  let main_v15 : FVec F S128x512x1 .f32 := broadcastInDim S128x512x1 ![] bcast_S_S128x512x1 main_cst_4
  let main_v16 : IVec S128x512x1 1 := cmpf .olt main_v14 main_v15
  fn_part1 (F := F) main_arg3 main_arg5 main_arg6 main_arg7 main_arg8 main_v13 main_v16
-- ==== Kernel.lean ====
abbrev S128x256x1024 : Shape := ⟨3, ![128, 256, 1024]⟩
abbrev S128x512x1024 : Shape := ⟨3, ![128, 512, 1024]⟩
abbrev S128x512x2 : Shape := ⟨3, ![128, 512, 2]⟩
abbrev S128x512x1 : Shape := ⟨3, ![128, 512, 1]⟩
abbrev S2048x1024 : Shape := ⟨2, ![2048, 1024]⟩
abbrev S1024 : Shape := ⟨1, ![1024]⟩
abbrev S3072x1024 : Shape := ⟨2, ![3072, 1024]⟩
abbrev S1024x1024 : Shape := ⟨2, ![1024, 1024]⟩
abbrev S1024x2048 : Shape := ⟨2, ![1024, 2048]⟩
abbrev S1x1024 : Shape := ⟨2, ![1, 1024]⟩
abbrev S_ : Shape := ⟨0, ![]⟩
abbrev S1x256x1024 : Shape := ⟨3, ![1, 256, 1024]⟩
abbrev S1x512x1024 : Shape := ⟨3, ![1, 512, 1024]⟩
abbrev S1x512x1 : Shape := ⟨3, ![1, 512, 1]⟩
abbrev S256x1024 : Shape := ⟨2, ![256, 1024]⟩
abbrev S256x2048 : Shape := ⟨2, ![256, 2048]⟩
abbrev S512x1024 : Shape := ⟨2, ![512, 1024]⟩
abbrev S256x256 : Shape := ⟨2, ![256, 256]⟩
abbrev S1x256x1 : Shape := ⟨3, ![1, 256, 1]⟩
abbrev S256x1 : Shape := ⟨2, ![256, 1]⟩
abbrev S256x512 : Shape := ⟨2, ![256, 512]⟩

abbrev nBuf : Space → Nat
  | .hbm => 33
  | .vmem => 22
  | .smem => 0
  | _ => 0

abbrev bufTy : (tb : Table) → Fin (tcTables nBuf tb) → BufTy
  | .hbm, ⟨0, _⟩ => ⟨S128x256x1024, .f32⟩
  | .hbm, ⟨1, _⟩ => ⟨S128x256x1024, .f32⟩
  | .hbm, ⟨2, _⟩ => ⟨S128x512x1024, .f32⟩
  | .hbm, ⟨3, _⟩ => ⟨S128x512x2, .i32⟩
  | .hbm, ⟨4, _⟩ => ⟨S128x512x1, .f32⟩
  | .hbm, ⟨5, _⟩ => ⟨S2048x1024, .f32⟩
  | .hbm, ⟨6, _⟩ => ⟨S1024, .f32⟩
  | .hbm, ⟨7, _⟩ => ⟨S3072x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x2048, .f32⟩
  | .hbm, ⟨17, _⟩ => ⟨S1024x2048, .bf16⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S128x512x2, .i32⟩
  | .hbm, ⟨25, _⟩ => ⟨S128x512x2, .i32⟩
  | .hbm, ⟨26, _⟩ => ⟨S_, .i32⟩
  | .hbm, ⟨27, _⟩ => ⟨S128x512x2, .i32⟩
  | .hbm, ⟨28, _⟩ => ⟨S128x512x2, .i32⟩
  | .hbm, ⟨29, _⟩ => ⟨S128x512x1, .i32⟩
  | .hbm, ⟨30, _⟩ => ⟨S128x512x1, .i32⟩
  | .hbm, ⟨31, _⟩ => ⟨S128x256x1024, .f32⟩
  | .hbm, ⟨32, _⟩ => ⟨S128x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1, .i32⟩
  | .local _ .vmem, ⟨7, _⟩ => ⟨S1x512x1, .i32⟩
  | .local _ .vmem, ⟨8, _⟩ => ⟨S1x512x1, .i32⟩
  | .local _ .vmem, ⟨9, _⟩ => ⟨S1x512x1, .i32⟩
  | .local _ .vmem, ⟨10, _⟩ => ⟨S1x512x1, .f32⟩
  | .local _ .vmem, ⟨11, _⟩ => ⟨S1x512x1, .f32⟩
  | .local _ .vmem, ⟨12, _⟩ => ⟨S1024x1024, .bf16⟩
  | .local _ .vmem, ⟨13, _⟩ => ⟨S1024x1024, .bf16⟩
  | .local _ .vmem, ⟨14, _⟩ => ⟨S1024x2048, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x512x1024, .f32⟩
  | .local _ .vmem, ⟨21, _⟩ => ⟨S1x512x1024, .f32⟩
  | _, _ => ⟨S128x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_c_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c2_i32 : BitVec 32 := 2#32
  let v31 : BitVec 32 := Scalar.addi c0_i32 c2_i32
  let c1_i32 : BitVec 32 := 1#32
  ⟨c0_i32, v31, c1_i32⟩
def k0_mult1 (k0_t1 : Fin k0_t1_loop.trips) : BitVec 32 :=
  let c0_i32_21 : BitVec 32 := 0#32
  let c0_i32 : BitVec 32 := 0#32
  let c1_i32 : BitVec 32 := 1#32
  let arg15 : BitVec 32 := Scf.iv c0_i32 c1_i32 k0_t1
  let c1_i32_20 : BitVec 32 := 1#32
  let v32 : BitVec 32 := Scalar.muli arg15 c1_i32_20
  let v33 : BitVec 32 := Scalar.addi c0_i32_21 v32
  let c256_i32 : BitVec 32 := 256#32
  let v34 : BitVec 32 := Scalar.muli v33 c256_i32
  v34
def k0_off1 (k0_t1 : Fin k0_t1_loop.trips) : Fin 3 → Nat :=
  let c0_22 : Index := 0#32
  let c0_i32_21 : BitVec 32 := 0#32
  let c0_i32 : BitVec 32 := 0#32
  let c1_i32 : BitVec 32 := 1#32
  let arg15 : BitVec 32 := Scf.iv c0_i32 c1_i32 k0_t1
  let c1_i32_20 : BitVec 32 := 1#32
  let v32 : BitVec 32 := Scalar.muli arg15 c1_i32_20
  let v33 : BitVec 32 := Scalar.addi c0_i32_21 v32
  let c256_i32 : BitVec 32 := 256#32
  let v34 : BitVec 32 := Scalar.muli v33 c256_i32
  let v35 : BitVec 32 := v34
  let v36 : Index := Scalar.indexCast v35
  let c0_23 : Index := 0#32
  ![0, v36.toNat, 0]
def k0_off2 (k0_t1 : Fin k0_t1_loop.trips) : Fin 3 → Nat :=
  let c0_27 : Index := 0#32
  let c0_i32_21 : BitVec 32 := 0#32
  let c0_i32 : BitVec 32 := 0#32
  let c1_i32 : BitVec 32 := 1#32
  let arg15 : BitVec 32 := Scf.iv c0_i32 c1_i32 k0_t1
  let c1_i32_20 : BitVec 32 := 1#32
  let v32 : BitVec 32 := Scalar.muli arg15 c1_i32_20
  let v33 : BitVec 32 := Scalar.addi c0_i32_21 v32
  let c256_i32 : BitVec 32 := 256#32
  let v34 : BitVec 32 := Scalar.muli v33 c256_i32
  let v35 : BitVec 32 := v34
  let v54 : Index := Scalar.indexCast v35
  let c0_28 : Index := 0#32
  ![0, v54.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2048x1024_S1024x1024_0_0 : S2048x1024.Slices ![0, 0] S1024x1024
  bitsLt_bf16_f32 : FTy.bits .bf16 < FTy.bits .f32
  slices_S2048x1024_S1024x1024_1024_0 : S2048x1024.Slices ![1024, 0] S1024x1024
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  concatenates_S1024x1024_S1024x1024_S1024x2048_d1 : Shape.Concatenates [S1024x1024, S1024x1024] S1024x2048 1
  shapeCasts_S1024_S1x1024 : S1024.ShapeCasts S1x1024
  bcast_S_S128x512x2 : S_.BroadcastsInDim S128x512x2 (![] : Fin 0 → Fin S128x512x2.rank)
  slices_S128x512x2_S128x512x1_0_0_0 : S128x512x2.Slices ![0, 0, 0] S128x512x1
  slices_S128x512x2_S128x512x1_0_0_1 : S128x512x2.Slices ![0, 0, 1] S128x512x1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x1024_S1x256x1024 : S256x1024.ShapeCasts S1x256x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S256x2048_o0_0_S256x1024 : S256x2048.Slices ![0, 0] S256x1024
  slices_S256x2048_o0_1024_S256x1024 : S256x2048.Slices ![0, 1024] S256x1024
  concatenates_S256x1024_S256x1024_S512x1024_d0 : Shape.Concatenates [S256x1024, S256x1024] S512x1024 0
  iota_S256x256_d1_w32 : S256x256.Iotas .tc 32 [1]
  h_S1x256x1 : 0 < S1x256x1.numel
  shapeCasts_S1x256x1_S256x1 : S1x256x1.ShapeCasts S256x1
  broadcasts_S256x1_S256x256 : S256x1.Broadcasts S256x256
  natLt_1_32 : 1 < 32
  concatenates_S256x256_S256x256_S256x512_d1 : Shape.Concatenates [S256x256, S256x256] S256x512 1
  broadcasts_S256x1_S256x1024 : S256x1.Broadcasts S256x1024
  dot_S256x1024_S1024x1024_S256x1024_1_0_0_1_n_n_wf : DotDims.WF S256x1024 S1024x1024 S256x1024 [1] [0] [0] [1] [] []
  dot_S256x1024_S1024x2048_S256x2048_1_0_0_1_n_n_wf : DotDims.WF S256x1024 S1024x2048 S256x2048 [1] [0] [0] [1] [] []
  dot_S256x512_S512x1024_S256x1024_1_0_0_1_n_n_wf : DotDims.WF S256x512 S512x1024 S256x1024 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x256x1.size a ≤ S1x512x1.size a
  k0_off2_inb : ∀ k0_t1 : Fin k0_t1_loop.trips, ∀ a, (k0_off2 k0_t1) a + S1x256x1024.size a ≤ S1x512x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S128x256x1024.size a
  hwx0_0 : ∀ i : grid0.Coords, EltTy.bits .f32 = 32 ∨ (Rect.block (s := S128x256x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S128x256x1024.size a
  hwx0_1 : ∀ i : grid0.Coords, EltTy.bits .f32 = 32 ∨ (Rect.block (s := S128x256x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S128x512x1024.size a
  hwx0_2 : ∀ i : grid0.Coords, EltTy.bits .f32 = 32 ∨ (Rect.block (s := S128x512x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S128x512x1.size a
  hwx0_3 : ∀ i : grid0.Coords, EltTy.bits .i32 = 32 ∨ (Rect.block (s := S128x512x1) S1x512x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S128x512x1.size a
  hwx0_4 : ∀ i : grid0.Coords, EltTy.bits .i32 = 32 ∨ (Rect.block (s := S128x512x1) S1x512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S128x512x1.size a
  hwx0_5 : ∀ i : grid0.Coords, EltTy.bits .f32 = 32 ∨ (Rect.block (s := S128x512x1) S1x512x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x2048.size a ≤ S1024x2048.size a
  hwx0_8 : ∀ i : grid0.Coords, EltTy.bits .bf16 = 32 ∨ (Rect.block (s := S1024x2048) S1024x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256x1024.size a ≤ S128x256x1024.size a
  hwx0_12 : ∀ i : grid0.Coords, EltTy.bits .f32 = 32 ∨ (Rect.block (s := S128x256x1024) S1x256x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x512x1024.size a ≤ S128x512x1024.size a
  hwx0_13 : ∀ i : grid0.Coords, EltTy.bits .f32 = 32 ∨ (Rect.block (s := S128x512x1024) S1x512x1024.size (cc0_transform_13 i) (hinb0_13 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1024x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15_0) S1x256x1024.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v15_1) S1x512x1024.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S128x256x1024 : Shape := ⟨3, ![128, 256, 1024]⟩
abbrev S128x512x1024 : Shape := ⟨3, ![128, 512, 1024]⟩
abbrev S128x512x2 : Shape := ⟨3, ![128, 512, 2]⟩
abbrev S128x512x1 : Shape := ⟨3, ![128, 512, 1]⟩
abbrev S2048x1024 : Shape := ⟨2, ![2048, 1024]⟩
abbrev S1024 : Shape := ⟨1, ![1024]⟩
abbrev S3072x1024 : Shape := ⟨2, ![3072, 1024]⟩
abbrev S32768x1024 : Shape := ⟨2, ![32768, 1024]⟩
abbrev S65536x1024 : Shape := ⟨2, ![65536, 1024]⟩
abbrev S128 : Shape := ⟨1, ![128]⟩
abbrev S_ : Shape := ⟨0, ![]⟩
abbrev S128x1x1 : Shape := ⟨3, ![128, 1, 1]⟩
abbrev S65536x2 : Shape := ⟨2, ![65536, 2]⟩
abbrev S32768x2048 : Shape := ⟨2, ![32768, 2048]⟩
abbrev S1x1024 : Shape := ⟨2, ![1, 1024]⟩
abbrev S65536x1 : Shape := ⟨2, ![65536, 1]⟩
abbrev S65536 : Shape := ⟨1, ![65536]⟩
abbrev S65536x3072 : Shape := ⟨2, ![65536, 3072]⟩

abbrev nBuf : Space → Nat
  | .hbm => 64
  | .vmem => 0
  | .smem => 0
  | _ => 0

abbrev bufTy : (tb : Table) → Fin (tcTables nBuf tb) → BufTy
  | .hbm, ⟨0, _⟩ => ⟨S128x256x1024, .f32⟩
  | .hbm, ⟨1, _⟩ => ⟨S128x256x1024, .f32⟩
  | .hbm, ⟨2, _⟩ => ⟨S128x512x1024, .f32⟩
  | .hbm, ⟨3, _⟩ => ⟨S128x512x2, .i32⟩
  | .hbm, ⟨4, _⟩ => ⟨S128x512x1, .f32⟩
  | .hbm, ⟨5, _⟩ => ⟨S2048x1024, .f32⟩
  | .hbm, ⟨6, _⟩ => ⟨S1024, .f32⟩
  | .hbm, ⟨7, _⟩ => ⟨S3072x1024, .f32⟩
  | .hbm, ⟨8, _⟩ => ⟨S1024, .f32⟩
  | .hbm, ⟨9, _⟩ => ⟨S32768x1024, .f32⟩
  | .hbm, ⟨10, _⟩ => ⟨S32768x1024, .f32⟩
  | .hbm, ⟨11, _⟩ => ⟨S65536x1024, .f32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S128x1x1, .i32⟩
  | .hbm, ⟨17, _⟩ => ⟨S128x512x2, .i32⟩
  | .hbm, ⟨18, _⟩ => ⟨S128x512x2, .i32⟩
  | .hbm, ⟨19, _⟩ => ⟨S65536x2, .i32⟩
  | .hbm, ⟨20, _⟩ => ⟨S32768x2048, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S65536x1, .i32⟩
  | .hbm, ⟨30, _⟩ => ⟨S65536, .i32⟩
  | .hbm, ⟨31, _⟩ => ⟨S_, .i32⟩
  | .hbm, ⟨32, _⟩ => ⟨S65536, .i32⟩
  | .hbm, ⟨33, _⟩ => ⟨S65536, .i1⟩
  | .hbm, ⟨34, _⟩ => ⟨S_, .i32⟩
  | .hbm, ⟨35, _⟩ => ⟨S65536, .i32⟩
  | .hbm, ⟨36, _⟩ => ⟨S65536, .i32⟩
  | .hbm, ⟨37, _⟩ => ⟨S65536, .i32⟩
  | .hbm, ⟨38, _⟩ => ⟨S65536x1, .i32⟩
  | .hbm, ⟨39, _⟩ => ⟨S65536x1024, .f32⟩
  | .hbm, ⟨40, _⟩ => ⟨S65536x1, .i32⟩
  | .hbm, ⟨41, _⟩ => ⟨S65536, .i32⟩
  | .hbm, ⟨42, _⟩ => ⟨S_, .i32⟩
  | .hbm, ⟨43, _⟩ => ⟨S65536, .i32⟩
  | .hbm, ⟨44, _⟩ => ⟨S65536, .i1⟩
  | .hbm, ⟨45, _⟩ => ⟨S_, .i32⟩
  | .hbm, ⟨46, _⟩ => ⟨S65536, .i32⟩
  | .hbm, ⟨47, _⟩ => ⟨S65536, .i32⟩
  | .hbm, ⟨48, _⟩ => ⟨S65536, .i32⟩
  | .hbm, ⟨49, _⟩ => ⟨S65536x1, .i32⟩
  | .hbm, ⟨50, _⟩ => ⟨S65536x1024, .f32⟩
  | .hbm, ⟨51, _⟩ => ⟨S65536x3072, .f32⟩
  | .hbm, ⟨52, _⟩ => ⟨S65536x1024, .f32⟩
  | .hbm, ⟨53, _⟩ => ⟨S1x1024, .f32⟩
  | .hbm, ⟨54, _⟩ => ⟨S65536x1024, .f32⟩
  | .hbm, ⟨55, _⟩ => ⟨S65536x1024, .f32⟩
  | .hbm, ⟨56, _⟩ => ⟨S_, .f32⟩
  | .hbm, ⟨57, _⟩ => ⟨S65536x1024, .f32⟩
  | .hbm, ⟨58, _⟩ => ⟨S65536x1024, .f32⟩
  | .hbm, ⟨59, _⟩ => ⟨S65536x1024, .f32⟩
  | .hbm, ⟨60, _⟩ => ⟨S128x256x1024, .f32⟩
  | .hbm, ⟨61, _⟩ => ⟨S128x512x1024, .f32⟩
  | .hbm, ⟨62, _⟩ => ⟨S128x512x1024, .f32⟩
  | .hbm, ⟨63, _⟩ => ⟨S128x512x1024, .f32⟩
  | _, _ => ⟨S128x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_cst : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_0 : Ref sig .tc := ⟨.hbm, 31, rfl⟩
abbrev main_v19 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_2 : Ref sig .tc := ⟨.hbm, 42, rfl⟩
abbrev main_v28 : Ref sig .tc := ⟨.hbm, 43, rfl⟩
abbrev main_v29 : Ref sig .tc := ⟨.hbm, 44, rfl⟩
abbrev main_c_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call1_cst : Ref sig .tc := ⟨.hbm, 56, rfl⟩
abbrev main_call1_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]

class Facts₀ : Prop where
  shapeCasts_S128x256x1024_S32768x1024 : S128x256x1024.ShapeCasts S32768x1024
  shapeCasts_S128x512x1024_S65536x1024 : S128x512x1024.ShapeCasts S65536x1024
  bcast_S_S128 : S_.BroadcastsInDim S128 (![] : Fin 0 → Fin S128.rank)
  bcast_S128_S128x1x1_0 : S128.BroadcastsInDim S128x1x1 (![0] : Fin 1 → Fin S128x1x1.rank)
  bcast_S128x1x1_S128x512x2_0_1_2 : S128x1x1.BroadcastsInDim S128x512x2 (![0, 1, 2] : Fin 3 → Fin S128x512x2.rank)
  shapeCasts_S128x512x2_S65536x2 : S128x512x2.ShapeCasts S65536x2
  concatenates_S32768x1024_S32768x1024_S32768x2048_d1 : Shape.Concatenates [S32768x1024, S32768x1024] S32768x2048 1
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  slices_S65536x2_S65536x1_0_0 : S65536x2.Slices ![0, 0] S65536x1
  shapeCasts_S65536x1_S65536 : S65536x1.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  slices_S65536x2_S65536x1_0_1 : S65536x2.Slices ![0, 1] S65536x1
  concatenates_S65536x1024_S65536x1024_S65536x1024_S65536x3072_d1 : Shape.Concatenates [S65536x1024, S65536x1024, S65536x1024] S65536x3072 1
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  shapeCasts_S32768x1024_S128x256x1024 : S32768x1024.ShapeCasts S128x256x1024
  shapeCasts_S65536x1024_S128x512x1024 : S65536x1024.ShapeCasts S128x512x1024
  bcast_S128x512x1_S128x512x1024_0_1_2 : S128x512x1.BroadcastsInDim S128x512x1024 (![0, 1, 2] : Fin 3 → Fin S128x512x1024.rank)
  dot_S32768x2048_S2048x1024_S32768x1024_1_0_0_1_n_n_wf : DotDims.WF S32768x2048 S2048x1024 S32768x1024 [1] [0] [0] [1] [] []
  gather_S32768x1024_S65536x1_S65536x1024_1_0_n_n_0_1_11024_wf : GatherDims.WF S32768x1024 S65536x1 S65536x1024 [1] [0] [] [0] [] 1 ![1, 1024]
  dot_S65536x3072_S3072x1024_S65536x1024_1_0_0_1_n_n_wf : DotDims.WF S65536x3072 S3072x1024 S65536x1024 [1] [0] [0] [1] [] []

variable [Facts₀]

def dot_S32768x2048_S2048x1024_S32768x1024_1_0_0_1_n_n : DotDims S32768x2048 S2048x1024 S32768x1024 where
  lhsContracting := [1]
  rhsContracting := [0]
  lhsNonContracting := [0]
  rhsNonContracting := [1]
  lhsBatch := []
  rhsBatch := []
  wf := dot_S32768x2048_S2048x1024_S32768x1024_1_0_0_1_n_n_wf
def gather_S32768x1024_S65536x1_S65536x1024_1_0_n_n_0_1_11024 : GatherDims S32768x1024 S65536x1 S65536x1024 where
  offsetDims := [1]
  collapsedSliceDims := [0]
  operandBatchingDims := []
  startIndicesBatchingDims := []
  startIndexMap := [0]
  indexVectorDim := 1
  sliceSizes := ![1, 1024]
  wf := gather_S32768x1024_S65536x1_S65536x1024_1_0_n_n_0_1_11024_wf
def dot_S65536x3072_S3072x1024_S65536x1024_1_0_0_1_n_n : DotDims S65536x3072 S3072x1024 S65536x1024 where
  lhsContracting := [1]
  rhsContracting := [0]
  lhsNonContracting := [0]
  rhsNonContracting := [1]
  lhsBatch := []
  rhsBatch := []
  wf := dot_S65536x3072_S3072x1024_S65536x1024_1_0_0_1_n_n_wf

class Facts : Prop extends Facts₀ where

variable [Facts]
-- ==== Proof.Spec.lean ====
/-
  What the program computes, as two functions of its argument arrays over the extended reals.

  For every batch b the 256 object rows and 256 attribute rows go through one linear layer on the
  concatenation [object, attribute] (2048 inputs, 1024 outputs), a rectifier, and a residual:
      attr'[b, p, j] = max (Σₖ obj[b,p,k]·Wa[k,j] + Σₖ attr[b,p,k]·Wa[1024+k,j] + ba[j]) 0 + attr[b,p,j].
  Each of the 512 relation rows r of batch b names a subject row s and an object row o of the SAME batch
  (the two integer words of the edge); the layer acts on [obj[b,s], rela[b,r], obj[b,o]] (3072 inputs):
      rela'[b, r, j] = (max (Σₖ obj[b,s,k]·Wr[k,j] + Σₖ obj[b,o,k]·Wr[2048+k,j] + Σₖ rela[b,r,k]·Wr[1024+k,j] + br[j]) 0
                        + rela[b,r,j]) · mask[b,r].
  The edge words are read as row numbers below 256; the range predicate says that every word is one.
  Last come the laws of finite sums that both programs' readings lean on: a sum against an indicator picks
  one term, and a sum over a range is the sum over its consecutive parts.
-/
import Idealize.ShloMosaic.PureOps.Ideal
import Idealize.ShloMosaic.Lib.ValueIdx

noncomputable section

open scoped BigOperators

namespace Cert.Spec

open Idealize.ShloMosaic Idealize.ShloMosaic.ValueIdx

/-! ## The arrays -/

abbrev ObjArr := (⟨3, ![128, 256, 1024]⟩ : Shape).Idx → EReal
abbrev RelArr := (⟨3, ![128, 512, 1024]⟩ : Shape).Idx → EReal
abbrev EdgeArr := (⟨3, ![128, 512, 2]⟩ : Shape).Idx → BitVec 32
abbrev MaskArr := (⟨3, ![128, 512, 1]⟩ : Shape).Idx → EReal
abbrev WAttr := (⟨2, ![2048, 1024]⟩ : Shape).Idx → EReal
abbrev WRela := (⟨2, ![3072, 1024]⟩ : Shape).Idx → EReal
abbrev Bias := (⟨1, ![1024]⟩ : Shape).Idx → EReal

/-! ## Rows of the stacked weight matrices -/

/-- Row k of the upper half of a 2048-row matrix. -/
def lo2 (k : Fin 1024) : Fin 2048 := ⟨k.val, by omega⟩
/-- Row 1024 + k: the lower half. -/
def hi2 (k : Fin 1024) : Fin 2048 := ⟨1024 + k.val, by omega⟩
/-- Row k of the first third of a 3072-row matrix. -/
def th0 (k : Fin 1024) : Fin 3072 := ⟨k.val, by omega⟩
/-- Row 1024 + k: the middle third. -/
def th1 (k : Fin 1024) : Fin 3072 := ⟨1024 + k.val, by omega⟩
/-- Row 2048 + k: the last third. -/
def th2 (k : Fin 1024) : Fin 3072 := ⟨2048 + k.val, by omega⟩

/-! ## An edge word as a row number -/

/-- The row an edge word names, among 256. -/
def eIdx (w : BitVec 32) : Fin 256 := ⟨w.toNat % 256, Nat.mod_lt _ (by norm_num)⟩

/-- Every edge word is a row number below 256. -/
def InRange (e : EdgeArr) : Prop := ∀ i, (e i).toNat < 256

theorem eIdx_val {w : BitVec 32} (h : w.toNat < 256) : (eIdx w).val = w.toNat := Nat.mod_eq_of_lt h

/-! ## The attribute branch -/

/-- Entry (b, p, j) of the new attribute array. -/
def attrAt (x0 x1 : ObjArr) (x5 : WAttr) (x6 : Bias) (b : Fin 128) (p : Fin 256) (j : Fin 1024) : EReal :=
  max (((∑ k : Fin 1024, x0 (ix3 b p k) * x5 (ix2 (lo2 k) j)) + (∑ k : Fin 1024, x1 (ix3 b p k) * x5 (ix2 (hi2 k) j)))
        + x6 (ix1 j)) 0
    + x1 (ix3 b p j)

/-- The new attribute array. -/
def attrOut (x0 x1 : ObjArr) (x5 : WAttr) (x6 : Bias) : ObjArr := fun i => attrAt x0 x1 x5 x6 (i 0) (i 1) (i 2)

theorem attrOut_apply (x0 x1 : ObjArr) (x5 : WAttr) (x6 : Bias) (b : Fin 128) (p : Fin 256) (j : Fin 1024) :
    attrOut x0 x1 x5 x6 (ix3 b p j) = attrAt x0 x1 x5 x6 b p j := rfl

/-! ## The relation branch -/

/-- Entry (b, r, j) of the new relation array. -/
def relaAt (x0 : ObjArr) (x2 : RelArr) (x3 : EdgeArr) (x4 : MaskArr) (x7 : WRela) (x8 : Bias)
    (b : Fin 128) (r : Fin 512) (j : Fin 1024) : EReal :=
  (max (((((∑ k : Fin 1024, x0 (ix3 b (eIdx (x3 (ix3 b r (0 : Fin 2)))) k) * x7 (ix2 (th0 k) j))
            + (∑ k : Fin 1024, x0 (ix3 b (eIdx (x3 (ix3 b r (1 : Fin 2)))) k) * x7 (ix2 (th2 k) j)))
          + (∑ k : Fin 1024, x2 (ix3 b r k) * x7 (ix2 (th1 k) j)))
        + x8 (ix1 j))) 0
    + x2 (ix3 b r j)) * x4 (ix3 b r (0 : Fin 1))

/-- The new relation array. -/
def relaOut (x0 : ObjArr) (x2 : RelArr) (x3 : EdgeArr) (x4 : MaskArr) (x7 : WRela) (x8 : Bias) : RelArr :=
  fun i => relaAt x0 x2 x3 x4 x7 x8 (i 0) (i 1) (i 2)

theorem relaOut_apply (x0 : ObjArr) (x2 : RelArr) (x3 : EdgeArr) (x4 : MaskArr) (x7 : WRela) (x8 : Bias)
    (b : Fin 128) (r : Fin 512) (j : Fin 1024) :
    relaOut x0 x2 x3 x4 x7 x8 (ix3 b r j) = relaAt x0 x2 x3 x4 x7 x8 b r j := rfl

/-! ## Laws of finite sums over the extended reals -/

/-- A sum against the indicator of one index is the term at that index (0 · x = 0 for every extended real). -/
theorem sum_indicator_mul {n : Nat} (s : Fin n) (f : Fin n → EReal) :
    (∑ k : Fin n, (if k = s then (1 : EReal) else 0) * f k) = f s := by
  rw [Finset.sum_eq_single s]
  · simp
  · intro k _ hk; simp [hk]
  · intro h; exact absurd (Finset.mem_univ s) h

/-- A sum over 2048 terms is the sum over the first 1024 plus the sum over the last 1024. -/
theorem sum_halves (g : Fin 2048 → EReal) :
    (∑ k : Fin 2048, g k) = (∑ k : Fin 1024, g (lo2 k)) + (∑ k : Fin 1024, g (hi2 k)) :=
  Fin.sum_univ_add (a := 1024) (b := 1024) (f := g)

/-- A sum over 3072 terms is the sum of its three consecutive thirds. -/
theorem sum_thirds (g : Fin 3072 → EReal) :
    (∑ k : Fin 3072, g k) = ((∑ k : Fin 1024, g (th0 k)) + (∑ k : Fin 1024, g (th1 k))) + (∑ k : Fin 1024, g (th2 k)) := by
  rw [show (∑ k : Fin 3072, g k) = (∑ i : Fin 2048, g (Fin.castAdd 1024 i)) + ∑ i : Fin 1024, g (Fin.natAdd 2048 i) from
    Fin.sum_univ_add (a := 2048) (b := 1024) (f := g)]
  rw [sum_halves (fun i => g (Fin.castAdd 1024 i))]
  rfl

/-- Row k of the first half of 512, and row 256 + k of the second. -/
def lo5 (k : Fin 256) : Fin 512 := ⟨k.val, by omega⟩
def hi5 (k : Fin 256) : Fin 512 := ⟨256 + k.val, by omega⟩

/-- A sum over 512 terms is the sum over the first 256 plus the sum over the last 256. -/
theorem sum_halves512 (g : Fin 512 → EReal) :
    (∑ k : Fin 512, g k) = (∑ k : Fin 256, g (lo5 k)) + (∑ k : Fin 256, g (hi5 k)) :=
  Fin.sum_univ_add (a := 256) (b := 256) (f := g)

end Cert.Spec

end
-- ==== Proof.KPieces.lean ====
/-
  What one run of the kernel body leaves in its two output buffers, as functions of the blocks it was given.

  The body stores the attribute block once, whole: the buffer ends at that store's value. The relation
  block is stored in two halves of 256 rows, one per trip of the body's loop; half k holds the trip's value,
  computed from rows 256k … 256k + 255 of the edge columns, the relation block and the mask column.
-/
import proofs.«429933_j4080218931959_3_alg».proof.Proof.Gen.KernelIdeal.Frame
import Idealize.ShloMosaic.Lib.Pipeline.Value
import Idealize.ShloMosaic.Lib.ValueIdx

set_option maxRecDepth 16384

noncomputable section

namespace Cert.KernelIdeal.Pieces

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

theorem zero3 : (![0, 0, 0] : Fin 3 → Nat) = fun _ => 0 := funext fun a => by fin_cases a <;> rfl
theorem zero2 : (![0, 0] : Fin 2 → Nat) = fun _ => 0 := funext fun a => by fin_cases a <;> rfl

/-- Row 256k + q of a 512-row block. -/
def rowOf (k : Fin 2) (q : Fin 256) : Fin 512 := ⟨256 * k.val + q.val, by have := k.isLt; have := q.isLt; omega⟩

/-- Rows 256k … 256k + 255 of a one-column block of 512 rows. -/
def half1 {e : EltTy} (x : Vec F S1x512x1 e) (k : Fin 2) : Vec F S1x256x1 e :=
  fun y => x (ix3 (0 : Fin 1) (rowOf k ⟨(y 1).val, (y 1).isLt⟩) (0 : Fin 1))

/-- Rows 256k … 256k + 255 of a 512 × 1024 block. -/
def halfC (x : Vec F S1x512x1024 .f32) (k : Fin 2) : Vec F S1x256x1024 .f32 :=
  fun y => x (ix3 (0 : Fin 1) (rowOf k ⟨(y 1).val, (y 1).isLt⟩) ⟨(y 2).val, (y 2).isLt⟩)

/-- The attribute buffer after the body: its one store's value, whatever the buffer held before. -/
theorem piece12 (c : Dev nD) (i : grid0.Coords) (arg1 : Memref sig .tc .vmem S1x256x1024 .f32) (harg1 : arg1.IsWhole) (arg2 : Memref sig .tc .vmem S1x256x1024 .f32) (harg2 : arg2.IsWhole) (arg3 : Memref sig .tc .vmem S1x512x1024 .f32) (harg3 : arg3.IsWhole) (arg4 : Memref sig .tc .vmem S1x512x1 .i32) (harg4 : arg4.IsWhole) (arg5 : Memref sig .tc .vmem S1x512x1 .i32) (harg5 : arg5.IsWhole) (arg6 : Memref sig .tc .vmem S1x512x1 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x2048 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x256x1024 .f32) (harg13 : arg13.IsWhole) (arg14 : Memref sig .tc .vmem S1x512x1024 .f32) (harg14 : arg14.IsWhole) (x0 : Vec F S1x256x1024 .f32) (x1 : Vec F S1x256x1024 .f32) (x2 : Vec F S1x512x1024 .f32) (x3 : Vec F S1x512x1 .i32) (x4 : Vec F S1x512x1 .i32) (x5 : Vec F S1x512x1 .f32) (x6 : Vec F S1024x1024 .bf16) (x7 : Vec F S1024x1024 .bf16) (x8 : Vec F S1024x2048 .bf16) (x9 : Vec F S1024x1024 .bf16) (x10 : Vec F S1x1024 .f32) (x11 : Vec F S1x1024 .f32) :
    out0_A_12 (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 = k0_pay4 x0 x1 x6 x7 x10 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11)]
  unfold kernelRun0_A
  dsimp only
  sl_unfold_words
  rw [View.canon_unit_zero zero3]
  simp only [View.readAt_eq_ld, harg1.read_unread, harg2.read_unread, harg7.read_unread, harg8.read_unread, harg11.read_unread,
    View.ld_unit_zero (S := S1x256x1024) zero3, View.ld_unit_zero (S := S1024x1024) zero2, View.ld_unit_zero (S := S1x1024) zero2]

/-- The body's loop runs two trips. -/
theorem trips2 : k0_t1_loop.trips = 2 := by decide +kernel

/-- Trip k of the loop as the number of the half it works on. -/
def halfOf (k : Fin k0_t1_loop.trips) : Fin 2 := ⟨k.val, trips2 ▸ k.isLt⟩

/-- A load of 256 rows of a one-column block at trip k's offset reads rows 256k … 256k + 255. -/
theorem ld_half1 {e : EltTy} (x : Vec F S1x512x1 e) (k : Fin k0_t1_loop.trips) :
    View.ld x (Rect.unit (s := S1x512x1) (k0_off1 k) S1x256x1.size (k0_off1_inb k)) = half1 x (halfOf k) := by
  funext y
  show x _ = x _
  congr 1
  funext a
  apply Fin.ext
  rw [LoadRect.idx_apply]
  simp only [Rect.off_unit, Rect.stride_unit, k0_off1_eq, Nat.one_mul]
  match a with
  | ⟨0, _⟩ => have := (y 0).isLt; show 0 + (y 0).val = 0; simp at this; omega
  | ⟨1, _⟩ => show 256 * k.val + (y 1).val = 256 * k.val + (y 1).val; rfl
  | ⟨2, _⟩ => have := (y 2).isLt; show 0 + (y 2).val = 0; simp at this; omega

/-- A load of 256 rows of a 512 × 1024 block at trip k's offset reads rows 256k … 256k + 255. -/
theorem ld_halfC (x : Vec F S1x512x1024 .f32) (k : Fin k0_t1_loop.trips) :
    View.ld x (Rect.unit (s := S1x512x1024) (k0_off2 k) S1x256x1024.size (k0_off2_inb k)) = halfC x (halfOf k) := by
  funext y
  show x _ = x _
  congr 1
  funext a
  apply Fin.ext
  rw [LoadRect.idx_apply]
  simp only [Rect.off_unit, Rect.stride_unit, k0_off2_eq, Nat.one_mul]
  match a with
  | ⟨0, _⟩ => have := (y 0).isLt; show 0 + (y 0).val = 0; simp at this; omega
  | ⟨1, _⟩ => show 256 * k.val + (y 1).val = 256 * k.val + (y 1).val; rfl
  | ⟨2, _⟩ => show 0 + (y 2).val = (y 2).val; omega

/-- Trip k writes one piece: at rows 256k … 256k + 255, the value computed from what it loads at those rows. -/
theorem tripPiece (𝒱 : Variants) (bd : Option 𝒱.V) (c : Dev nD) (i : grid0.Coords) (arg1 : Memref sig .tc .vmem S1x256x1024 .f32) (harg1 : arg1.IsWhole) (arg2 : Memref sig .tc .vmem S1x256x1024 .f32) (harg2 : arg2.IsWhole) (arg3 : Memref sig .tc .vmem S1x512x1024 .f32) (harg3 : arg3.IsWhole) (arg4 : Memref sig .tc .vmem S1x512x1 .i32) (harg4 : arg4.IsWhole) (arg5 : Memref sig .tc .vmem S1x512x1 .i32) (harg5 : arg5.IsWhole) (arg6 : Memref sig .tc .vmem S1x512x1 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x2048 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x256x1024 .f32) (harg13 : arg13.IsWhole) (arg14 : Memref sig .tc .vmem S1x512x1024 .f32) (harg14 : arg14.IsWhole) (v0 : Vec F S1x256x1024 .f32) (v23 : Vec F S1024x2048 .bf16) (v30 : IVec S256x256 32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg10 : BufTy.Contents (Elt F) arg10.view.ty) (X_arg12 : BufTy.Contents (Elt F) arg12.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v23 v30 X_arg3 X_arg4 X_arg5 X_arg6 X_arg10 X_arg12 k
      = [⟨Rect.unit (k0_off2 k) S1x256x1024.size (k0_off2_inb k),
          k0_pay6 (k0_pay1 (k0_pay5 v0 v23) v30
              (View.readAt (Elt F) arg4.view (Rect.unit (s := S1x512x1) (k0_off1 k) S1x256x1.size (k0_off1_inb k)).toLoadRect X_arg4)
              (View.readAt (Elt F) arg5.view (Rect.unit (s := S1x512x1) (k0_off1 k) S1x256x1.size (k0_off1_inb k)).toLoadRect X_arg5)
              (View.readAt (Elt F) arg3.view (Rect.unit (s := S1x512x1024) (k0_off2 k) S1x256x1024.size (k0_off2_inb k)).toLoadRect X_arg3)
              (View.readAt (Elt F) arg10.view (Rect.unit (s := S1024x1024) ![0, 0] S1024x1024.size inb_S1024x1024_S1024x1024_0_0).toLoadRect X_arg10)
              (View.readAt (Elt F) arg12.view (Rect.unit (s := S1x1024) ![0, 0] S1x1024.size inb_S1x1024_S1x1024_0_0).toLoadRect X_arg12))
            (k0_pay2 (View.readAt (Elt F) arg6.view (Rect.unit (s := S1x512x1) (k0_off1 k) S1x256x1.size (k0_off1_inb k)).toLoadRect X_arg6))⟩] := by
  unfold tripL_k0_t1 trip_k0_t1
  rfl

/-- The same loads through a whole buffer holding the block. -/
theorem readAt_half1 {e : EltTy} (m : Memref sig .tc .vmem S1x512x1 e) (hm : m.IsWhole) (x : Vec F S1x512x1 e) (k : Fin k0_t1_loop.trips) :
    View.readAt (Elt F) m.view (Rect.unit (s := S1x512x1) (k0_off1 k) S1x256x1.size (k0_off1_inb k)).toLoadRect (hm.unread x)
      = half1 x (halfOf k) := by
  rw [View.readAt_eq_ld, hm.read_unread, ld_half1]

theorem readAt_halfC (m : Memref sig .tc .vmem S1x512x1024 .f32) (hm : m.IsWhole) (x : Vec F S1x512x1024 .f32) (k : Fin k0_t1_loop.trips) :
    View.readAt (Elt F) m.view (Rect.unit (s := S1x512x1024) (k0_off2 k) S1x256x1024.size (k0_off2_inb k)).toLoadRect (hm.unread x)
      = halfC x (halfOf k) := by
  rw [View.readAt_eq_ld, hm.read_unread, ld_halfC]

/-- A load of a whole buffer reads the block it holds. -/
theorem readAt_whole2 {S : Shape} {e : EltTy} (m : Memref sig .tc .vmem S e) (hm : m.IsWhole) (x : Vec F S e)
    {off : Fin S.rank → Nat} (h : off = fun _ => 0) (inb : ∀ a, off a + S.size a ≤ S.size a) :
    View.readAt (Elt F) m.view (Rect.unit (s := S) off S.size inb).toLoadRect (hm.unread x) = x := by
  rw [View.readAt_eq_ld, hm.read_unread, View.ld_unit_zero h]

/-- The value trip k stores, from the halves of the blocks it reads. -/
def tripVal (v0 : Vec F S1x256x1024 .f32) (v23 : Vec F S1024x2048 .bf16) (v30 : IVec S256x256 32) (x2 : Vec F S1x512x1024 .f32) (x3 : Vec F S1x512x1 .i32) (x4 : Vec F S1x512x1 .i32) (x5 : Vec F S1x512x1 .f32) (x9 : Vec F S1024x1024 .bf16) (x11 : Vec F S1x1024 .f32) (k : Fin 2) : Vec F S1x256x1024 .f32 :=
  k0_pay6 (k0_pay1 (k0_pay5 v0 v23) v30 (half1 x3 k) (half1 x4 k) (halfC x2 k) x9 x11) (k0_pay2 (half1 x5 k))

/-- Trip k's one piece, over buffers holding the blocks: rows 256k … 256k + 255 get trip k's value. -/
theorem tripPiece' (𝒱 : Variants) (bd : Option 𝒱.V) (c : Dev nD) (i : grid0.Coords) (arg1 : Memref sig .tc .vmem S1x256x1024 .f32) (harg1 : arg1.IsWhole) (arg2 : Memref sig .tc .vmem S1x256x1024 .f32) (harg2 : arg2.IsWhole) (arg3 : Memref sig .tc .vmem S1x512x1024 .f32) (harg3 : arg3.IsWhole) (arg4 : Memref sig .tc .vmem S1x512x1 .i32) (harg4 : arg4.IsWhole) (arg5 : Memref sig .tc .vmem S1x512x1 .i32) (harg5 : arg5.IsWhole) (arg6 : Memref sig .tc .vmem S1x512x1 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x2048 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x256x1024 .f32) (harg13 : arg13.IsWhole) (arg14 : Memref sig .tc .vmem S1x512x1024 .f32) (harg14 : arg14.IsWhole) (v0 : Vec F S1x256x1024 .f32) (v23 : Vec F S1024x2048 .bf16) (v30 : IVec S256x256 32) (x2 : Vec F S1x512x1024 .f32) (x3 : Vec F S1x512x1 .i32) (x4 : Vec F S1x512x1 .i32) (x5 : Vec F S1x512x1 .f32) (x9 : Vec F S1024x1024 .bf16) (x11 : Vec F S1x1024 .f32) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v23 v30 (harg3.unread x2) (harg4.unread x3) (harg5.unread x4) (harg6.unread x5) (harg10.unread x9) (harg12.unread x11) k
      = [⟨Rect.unit (s := S1x512x1024) (k0_off2 k) S1x256x1024.size (k0_off2_inb k), tripVal v0 v23 v30 x2 x3 x4 x5 x9 x11 (halfOf k)⟩] := by
  rw [tripPiece, readAt_half1 arg4 harg4, readAt_half1 arg5 harg5, readAt_half1 arg6 harg6, readAt_halfC arg3 harg3,
    readAt_whole2 arg10 harg10 x9 zero2, readAt_whole2 arg12 harg12 x11 zero2]
  rfl

/-- Pieces laid down trip by trip, trip k at rows 256k …: the canon under trip k's rectangle is trip k's value. -/
theorem canon_steps (P : ℕ → List (View.Piece (Elt F) S1x512x1024 .f32)) (W : Fin k0_t1_loop.trips → Vec F S1x256x1024 .f32)
    (hP : ∀ k : Fin k0_t1_loop.trips, P (k.val + 1)
      = (⟨Rect.unit (s := S1x512x1024) (k0_off2 k) S1x256x1024.size (k0_off2_inb k), W k⟩ : View.Piece (Elt F) S1x512x1024 .f32) :: P k.val)
    (n : ℕ) (hn : n ≤ k0_t1_loop.trips) (k : Fin k0_t1_loop.trips) (hk : k.val < n) (x : S1x256x1024.Idx) :
    View.canon (P n) ((Rect.unit (s := S1x512x1024) (k0_off2 k) S1x256x1024.size (k0_off2_inb k)).emb x) = W k x := by
  induction n with
  | zero => exact absurd hk (Nat.not_lt_zero _)
  | succ n ih =>
    have hlt : n < k0_t1_loop.trips := hn
    have e := hP ⟨n, hlt⟩
    rw [show P (n + 1) = _ from e]
    by_cases hkn : k.val = n
    · have hk' : (⟨n, hlt⟩ : Fin k0_t1_loop.trips) = k := Fin.ext hkn.symm
      rw [hk']
      exact View.canon_cons_emb (Rect.unit (s := S1x512x1024) (k0_off2 k) S1x256x1024.size (k0_off2_inb k)) (W k) _ x
    · rw [View.canon_cons_of_not_mem]
      · exact ih (Nat.le_of_lt hlt) (by omega)
      · intro hmem
        have h1 := ((Rect.mem_set_unit (inb := k0_off2_inb ⟨n, hlt⟩)).mp hmem) 1
        rw [Rect.emb_apply] at h1
        simp only [Rect.off_unit, Rect.stride_unit, k0_off2_eq] at h1
        have hx : (x 1).val < 256 := (x 1).isLt
        change 256 * n ≤ 256 * k.val + 1 * (x 1).val ∧ _ at h1
        omega

/-- The relation buffer after the body, at row 256k + q and column j: trip k's value at (q, j). -/
theorem piece13 (c : Dev nD) (i : grid0.Coords) (arg1 : Memref sig .tc .vmem S1x256x1024 .f32) (harg1 : arg1.IsWhole) (arg2 : Memref sig .tc .vmem S1x256x1024 .f32) (harg2 : arg2.IsWhole) (arg3 : Memref sig .tc .vmem S1x512x1024 .f32) (harg3 : arg3.IsWhole) (arg4 : Memref sig .tc .vmem S1x512x1 .i32) (harg4 : arg4.IsWhole) (arg5 : Memref sig .tc .vmem S1x512x1 .i32) (harg5 : arg5.IsWhole) (arg6 : Memref sig .tc .vmem S1x512x1 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x2048 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x256x1024 .f32) (harg13 : arg13.IsWhole) (arg14 : Memref sig .tc .vmem S1x512x1024 .f32) (harg14 : arg14.IsWhole) (x0 : Vec F S1x256x1024 .f32) (x1 : Vec F S1x256x1024 .f32) (x2 : Vec F S1x512x1024 .f32) (x3 : Vec F S1x512x1 .i32) (x4 : Vec F S1x512x1 .i32) (x5 : Vec F S1x512x1 .f32) (x6 : Vec F S1024x1024 .bf16) (x7 : Vec F S1024x1024 .bf16) (x8 : Vec F S1024x2048 .bf16) (x9 : Vec F S1024x1024 .bf16) (x10 : Vec F S1x1024 .f32) (x11 : Vec F S1x1024 .f32) (k : Fin 2) (q : Fin 256) (j : Fin 1024) :
    out0_A_13 (F := F) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 (ix3 (0 : Fin 1) (rowOf k q) j)
      = k0_pay6 (k0_pay1 (k0_pay5 x0 x8) (iota .tc S256x256 32 [1] iota_S256x256_d1_w32) (half1 x3 k) (half1 x4 k) (halfC x2 k) x9 x11)
          (k0_pay2 (half1 x5 k)) (ix3 (0 : Fin 1) q j) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11)]
  unfold kernelRun0_A
  dsimp only
  sl_unfold_words
  simp only [View.readAt_eq_ld, harg1.read_unread, harg9.read_unread, View.ld_unit_zero (S := S1x256x1024) zero3,
    View.ld_unit_zero (S := S1024x2048) zero2]
  have hk' : k.val < k0_t1_loop.trips := by rw [trips2]; exact k.isLt
  have hy : ix3 (0 : Fin 1) (rowOf k q) j
      = (Rect.unit (s := S1x512x1024) (k0_off2 ⟨k.val, hk'⟩) S1x256x1024.size (k0_off2_inb ⟨k.val, hk'⟩)).emb (ix3 (0 : Fin 1) q j) := by
    funext a
    apply Fin.ext
    rw [Rect.emb_apply]
    simp only [Rect.off_unit, Rect.stride_unit, k0_off2_eq, Nat.one_mul]
    match a with
    | ⟨0, _⟩ => rfl
    | ⟨1, _⟩ => rfl
    | ⟨2, _⟩ => show j.val = 0 + j.val; omega
  have key := canon_steps (F := F)
    (fun n => pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 x0 x8 (iota .tc S256x256 32 [1] iota_S256x256_d1_w32) (harg3.unread x2) (harg4.unread x3) (harg5.unread x4) (harg6.unread x5) (harg10.unread x9) (harg12.unread x11) n)
    (fun k' => tripVal x0 x8 (iota .tc S256x256 32 [1] iota_S256x256_d1_w32) x2 x3 x4 x5 x9 x11 (halfOf k'))
    (fun k' => by
      show pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 x0 x8 (iota .tc S256x256 32 [1] iota_S256x256_d1_w32) (harg3.unread x2) (harg4.unread x3) (harg5.unread x4) (harg6.unread x5) (harg10.unread x9) (harg12.unread x11) (k'.val + 1) = _
      rw [pb_k0_t1_succ, tripPiece', List.singleton_append])
    k0_t1_loop.trips le_rfl ⟨k.val, hk'⟩ hk' (ix3 (0 : Fin 1) q j)
  rw [hy]
  exact key

end Cert.KernelIdeal.Pieces

end
-- ==== Proof.KPay12.lean ====
/-
  The attribute store's value read at an entry, over the extended reals.

  Row p, column j of the block the body stores is
      max (Σₖ obj[p,k]·w1[k,j] + Σₖ attr[p,k]·w2[k,j] + b[j]) 0 + attr[p,j]:
  two matrix products into zero accumulators (plain sums here), the bias row laid along the rows, the
  rectifier as a maximum with zero, and the residual. Changes of float format are the identity.
-/
import proofs.«429933_j4080218931959_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Pay

open Cert.KernelIdeal Cert.KernelIdeal.Gen
open Idealize.ShloMosaic Idealize.ShloMosaic.TcCoe Idealize.ShloMosaic.ValueIdx

/-- The left operand's row is the output's row. -/
theorem lhs_pay12_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
/-- The left operand's column is the contraction coordinate. -/
theorem lhs_pay12_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
/-- The right operand's row is the contraction coordinate. -/
theorem rhs_pay12_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
/-- The right operand's column is the output's column. -/
theorem rhs_pay12_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A matrix product into the zero accumulator, at (p, j): Σₖ A[p,k]·B[k,j]. -/
theorem mm_pay12_apply (A : FVec Ideal S256x1024 .bf16) (B : FVec Ideal S1024x1024 .bf16) (p : Fin 256) (j : Fin 1024) :
    matmul (F := Ideal) dot_S256x1024_S1024x1024_S256x1024_1_0_0_1_n_n none A B
        (constant (F := Ideal) S256x1024 .f32 0x00000000#32) (ix2 p j)
      = ∑ k : Fin 1024, A (ix2 p k) * B (ix2 k j) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p j) ((ValueIdx.contrEquiv1 dot_S256x1024_S1024x1024_S256x1024_1_0_0_1_n_n 1024 rfl rfl).symm k) = ix2 p k := funext fun a => Fin.ext (by
    match a with
    | ⟨0, _⟩ => exact lhs_pay12_0 _ _
    | ⟨1, _⟩ => exact (lhs_pay12_1 _ _).trans hk)
  have er : dot_S256x1024_S1024x1024_S256x1024_1_0_0_1_n_n.rhsIdx (ix2 p j) ((ValueIdx.contrEquiv1 dot_S256x1024_S1024x1024_S256x1024_1_0_0_1_n_n 1024 rfl rfl).symm k) = ix2 k j := funext fun a => Fin.ext (by
    match a with
    | ⟨0, _⟩ => exact (rhs_pay12_0 _ _).trans hk
    | ⟨1, _⟩ => exact rhs_pay12_1 _ _)
  rw [el, er]

/-- Entry (p, j) of the attribute store's value. -/
theorem pay12_apply (x0 x1 : Vec Ideal S1x256x1024 .f32) (x6 x7 : Vec Ideal S1024x1024 .bf16) (x10 : Vec Ideal S1x1024 .f32)
    (p : Fin 256) (j : Fin 1024) :
    (k0_pay4 (F := Ideal) x0 x1 x6 x7 x10 (ix3 (0 : Fin 1) p j) : EReal)
      = max ((((∑ k : Fin 1024, (x0 (ix3 (0 : Fin 1) p k) : EReal) * (x6 (ix2 k j) : EReal))
              + (∑ k : Fin 1024, (x1 (ix3 (0 : Fin 1) p k) : EReal) * (x7 (ix2 k j) : EReal)))
            + (x10 (ix2 (0 : Fin 1) j) : EReal))) 0
          + (x1 (ix3 (0 : Fin 1) p j) : EReal) := by
  unfold k0_pay4 k0_pay3
  refine (shapeCast_ab_1ab_apply _ shapeCasts_S256x1024_S1x256x1024 (0 : Fin 1) p j).trans ?_
  have e0 : ∀ k : Fin 1024, shapeCast S256x1024 x0 shapeCasts_S1x256x1024_S256x1024 (ix2 p k) = x0 (ix3 (0 : Fin 1) p k) :=
    fun k => shapeCast_1ab_ab_apply x0 shapeCasts_S1x256x1024_S256x1024 p k
  have e1 : ∀ k : Fin 1024, shapeCast S256x1024 x1 shapeCasts_S1x256x1024_S256x1024 (ix2 p k) = x1 (ix3 (0 : Fin 1) p k) :=
    fun k => shapeCast_1ab_ab_apply x1 shapeCasts_S1x256x1024_S256x1024 p k
  have e6 : shapeCast S1024x1024 x6 shapeCasts_S1024x1024_S1024x1024 = x6 := shapeCast_self x6 _
  have e7 : shapeCast S1024x1024 x7 shapeCasts_S1024x1024_S1024x1024 = x7 := shapeCast_self x7 _
  have e10 : shapeCast S1x1024 x10 shapeCasts_S1x1024_S1x1024 = x10 := shapeCast_self x10 _
  rw [e6, e7, e10]
  rw [addf_apply, maximumf_apply, addf_apply, addf_apply, broadcast_apply, mm_pay12_apply, mm_pay12_apply,
      broadcastTo_1b_ab_apply, e1]
  simp only [truncf_apply, e0, e1]
  exact congrArg (fun z : EReal => max _ z + _) Ideal.ofBits_zero_f32

end Cert.KernelIdeal.Pay

end
-- ==== Proof.KPay13.lean ====
/-
  One trip's relation value read at an entry, over the extended reals.

  The trip builds, for its 256 rows, an indicator matrix of 512 columns: entry (q, c) is 1 when c < 256 is the
  subject word of row q, or c - 256 is its object word, else 0. It multiplies it into the stacked table whose
  row c < 256 is the object block's row c through the left half of the fused weights, and whose row 256 + c is
  row c through the right half. A sum against an indicator picks one term, so the product's row q is the
  subject's projected row plus the object's. Then the relation chunk through its own weights, the bias, the
  rectifier, the residual, and the mask column laid along the row.
-/
import proofs.«429933_j4080218931959_3_alg».proof.Proof.Gen.KernelIdeal.Skeleton
import proofs.«429933_j4080218931959_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Pay

open Cert.KernelIdeal Cert.KernelIdeal.Gen
open Idealize.ShloMosaic Idealize.ShloMosaic.TcCoe Idealize.ShloMosaic.ValueIdx

/-! ## The three matrix products, each into a zero accumulator, read at an entry -/

theorem lhsW_0 (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem lhsW_1 (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
theorem rhsW_0 (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
theorem rhsW_1 (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- A 256 × 1024 matrix times a 1024 × 2048 one, at (p, c): the sum over the 1024 inner positions. -/
theorem mmW_apply (A : FVec Ideal S256x1024 .bf16) (B : FVec Ideal S1024x2048 .bf16) (p : Fin 256) (c : Fin 2048) :
    matmul (F := Ideal) dot_S256x1024_S1024x2048_S256x2048_1_0_0_1_n_n none A B (constant S256x2048 .f32 0x00000000#32) (ix2 p c)
      = ∑ k : Fin 1024, A (ix2 p k) * B (ix2 k c) := by
  simp only [matmul]
  rw [Ideal.matmul_constant_zero_apply, ← Equiv.sum_comp (ValueIdx.contrEquiv1 dot_S256x1024_S1024x2048_S256x2048_1_0_0_1_n_n 1024 rfl rfl).symm]
  refine Finset.sum_congr rfl fun k _ => ?_
  have hk := ValueIdx.contrEquiv1_symm_val dot_S256x1024_S1024x2048_S256x2048_1_0_0_1_n_n 1024 rfl rfl k
  have el : dot_S256x1024_S1024x2048_S256x2048_1_0_0_1_n_n.lhsIdx (ix2 p c) ((ValueIdx.contrEquiv1 dot_S256x1024_S1024x2048_S256x2048_1_0_0_1_n_n 1024 rfl rfl).symm k) = ix2 p k := funext fun a => Fin.ext (by
    match a with
    | ⟨0, _⟩ => exact lhsW_0 _ _
    | ⟨1, _⟩ => exact (lhsW_1 _ _).trans hk)
  have er : dot_S256x1024_S1024x2048_S256x2048_1_0_0_1_n_n.rhsIdx (ix2 p c) ((ValueIdx.contrEquiv1 dot_S256x1024_S1024x2048_S256x2048_1_0_0_1_n_n 1024 rfl rfl).symm k) = ix2 k c := funext fun a => Fin.ext (by
    match a with
    | ⟨0, _⟩ => exact (rhsW_0 _ _).trans hk
    | ⟨1, _⟩ => exact rhsW_1 _ _)
  rw [el, er]

theorem lhsT_0 (i : S256x1024.Idx) (q : dot_S256x512_S512x1024_S256x1024_1_0_0_1_n_n.contr.Idx) :
    (dot_S256x512_S512x1024_S256x1024_1_0_0_1_n_n.lhsIdx i q 0).val = (i 0).val := by
  unfold DotDims.lhsIdx
  rw [dif_neg (show ¬(0 : Fin S256x512.rank) ∈ dot_S256x512_S512x1024_S256x1024_1_0_0_1_n_n.lhsBatch by decide), dif_pos (show (0 : Fin S256x512.rank) ∈ dot_S256x512_S512x1024_S256x1024_1_0_0_1_n_n.lhsNonContracting by decide)]
  rfl
theorem lhsT_1 (i : S256x1024.Idx) (q : dot_S256x512_S512x1024_S256x1024_1_0_0_1_n_n.contr.Idx) :
    (dot_S256x512_S512x1024_S256x1024_1_0_0_1_n_n.lhsIdx i q 1).val = (q ⟨0, by decide⟩).val :=
  dot_S256x512_S512x1024_S256x1024_1_0_0_1_n_n.lhsIdx_val_of_single rfl i q
theorem rhsT_0 (i : S256x1024.Idx) (q : dot_S256x512_S512x1024_S256x1024_1_0_0_1_n_n.contr.Idx) :
    (dot_S256x512_S512x1024_S256x1024_1_0_0_1_n_n.rhsIdx i q 0).val = (q ⟨0, by decide⟩).val :=
  dot_S256x512_S512x1024_S256x1024_1_0_0_1_n_n.rhsIdx_val_of_single rfl i q
theorem rhsT_1 (i : S256x1024.Idx) (q : dot_S256x512_S512x1024_S256x1024_1_0_0_1_n_n.contr.Idx) :
    (dot_S256x512_S512x1024_S256x1024_1_0_0_1_n_n.rhsIdx i q 1).val = (i 1).val := by
  unfold DotDims.rhsIdx
  rw [dif_neg (show ¬(1 : Fin S512x1024.rank) ∈ dot_S256x512_S512x1024_S256x1024_1_0_0_1_n_n.rhsBatch by decide), dif_pos (show (1 : Fin S512x1024.rank) ∈ dot_S256x512_S512x1024_S256x1024_1_0_0_1_n_n.rhsNonContracting by decide)]
  rfl

/-- A 256 × 512 matrix times a 512 × 1024 one, at (p, c): the sum over the 512 inner positions. -/
theorem mmT_apply (A : FVec Ideal S256x512 .bf16) (B : FVec Ideal S512x1024 .bf16) (p : Fin 256) (c : Fin 1024) :
    matmul (F := Ideal) dot_S256x512_S512x1024_S256x1024_1_0_0_1_n_n none A B (constant S256x1024 .f32 0x00000000#32) (ix2 p c)
      = ∑ k : Fin 512, A (ix2 p k) * B (ix2 k c) := by
  simp only [matmul]
  rw [Ideal.matmul_constant_zero_apply, ← Equiv.sum_comp (ValueIdx.contrEquiv1 dot_S256x512_S512x1024_S256x1024_1_0_0_1_n_n 512 rfl rfl).symm]
  refine Finset.sum_congr rfl fun k _ => ?_
  have hk := ValueIdx.contrEquiv1_symm_val dot_S256x512_S512x1024_S256x1024_1_0_0_1_n_n 512 rfl rfl k
  have el : dot_S256x512_S512x1024_S256x1024_1_0_0_1_n_n.lhsIdx (ix2 p c) ((ValueIdx.contrEquiv1 dot_S256x512_S512x1024_S256x1024_1_0_0_1_n_n 512 rfl rfl).symm k) = ix2 p k := funext fun a => Fin.ext (by
    match a with
    | ⟨0, _⟩ => exact lhsT_0 _ _
    | ⟨1, _⟩ => exact (lhsT_1 _ _).trans hk)
  have er : dot_S256x512_S512x1024_S256x1024_1_0_0_1_n_n.rhsIdx (ix2 p c) ((ValueIdx.contrEquiv1 dot_S256x512_S512x1024_S256x1024_1_0_0_1_n_n 512 rfl rfl).symm k) = ix2 k c := funext fun a => Fin.ext (by
    match a with
    | ⟨0, _⟩ => exact (rhsT_0 _ _).trans hk
    | ⟨1, _⟩ => exact rhsT_1 _ _)
  rw [el, er]

theorem lhsR_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhsR_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhsR_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhsR_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A 256 × 1024 matrix times a 1024 × 1024 one, at (p, c): the sum over the 1024 inner positions. -/
theorem mmR_apply (A : FVec Ideal S256x1024 .bf16) (B : FVec Ideal S1024x1024 .bf16) (p : Fin 256) (c : Fin 1024) :
    matmul (F := Ideal) dot_S256x1024_S1024x1024_S256x1024_1_0_0_1_n_n none A B (constant S256x1024 .f32 0x00000000#32) (ix2 p c)
      = ∑ k : Fin 1024, A (ix2 p k) * B (ix2 k c) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p c) ((ValueIdx.contrEquiv1 dot_S256x1024_S1024x1024_S256x1024_1_0_0_1_n_n 1024 rfl rfl).symm k) = ix2 p k := funext fun a => Fin.ext (by
    match a with
    | ⟨0, _⟩ => exact lhsR_0 _ _
    | ⟨1, _⟩ => exact (lhsR_1 _ _).trans hk)
  have er : dot_S256x1024_S1024x1024_S256x1024_1_0_0_1_n_n.rhsIdx (ix2 p c) ((ValueIdx.contrEquiv1 dot_S256x1024_S1024x1024_S256x1024_1_0_0_1_n_n 1024 rfl rfl).symm k) = ix2 k c := funext fun a => Fin.ext (by
    match a with
    | ⟨0, _⟩ => exact (rhsR_0 _ _).trans hk
    | ⟨1, _⟩ => exact rhsR_1 _ _)
  rw [el, er]

/-! ## Layout: a column laid along the rows, the two halves of a row of 512, the two halves of a column of 512 -/

/-- An [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 256, 1] column, its unit axis dropped and laid along 256 columns, reads at (q, c) the column at q. -/
theorem col256_apply {α : Type} (v : S1x256x1.Idx → α) (q c : Fin 256) :
    broadcastTo S256x256 (shapeCast S256x1 v shapeCasts_S1x256x1_S256x1) broadcasts_S256x1_S256x256 (ix2 q c)
      = v (ix3 (0 : Fin 1) q (0 : Fin 1)) := by
  rw [broadcastTo_a1_ab_apply, shapeCast_1ab_ab_apply]

/-- The same along 1024 columns. -/
theorem col1024_apply {α : Type} (v : S1x256x1.Idx → α) (q : Fin 256) (j : Fin 1024) :
    broadcastTo S256x1024 (shapeCast S256x1 v shapeCasts_S1x256x1_S256x1) broadcasts_S256x1_S256x1024 (ix2 q j)
      = v (ix3 (0 : Fin 1) q (0 : Fin 1)) := by
  rw [broadcastTo_a1_ab_apply, shapeCast_1ab_ab_apply]

/-- Two 256 × 256 matrices side by side: column c < 256 of the result is column c of the first … -/
theorem cat1_lo {α : Type} (X Y : S256x256.Idx → α) (q c : Fin 256) :
    concatenate S256x512 1 [⟨S256x256, X⟩, ⟨S256x256, Y⟩] concatenates_S256x256_S256x256_S256x512_d1 (ix2 q (Cert.Spec.lo5 c))
      = X (ix2 q c) :=
  concatenate_pair_apply_left (1 : Fin 2) X Y concatenates_S256x256_S256x256_S256x512_d1 (ix2 q (Cert.Spec.lo5 c)) rfl (ix2 q c)
    (fun b => match b with | ⟨0, _⟩ => rfl | ⟨1, _⟩ => rfl)

/-- … and column 256 + c is column c of the second. -/
theorem cat1_hi {α : Type} (X Y : S256x256.Idx → α) (q c : Fin 256) :
    concatenate S256x512 1 [⟨S256x256, X⟩, ⟨S256x256, Y⟩] concatenates_S256x256_S256x256_S256x512_d1 (ix2 q (Cert.Spec.hi5 c))
      = Y (ix2 q c) :=
  concatenate_pair_apply_right (1 : Fin 2) X Y concatenates_S256x256_S256x256_S256x512_d1 (ix2 q (Cert.Spec.hi5 c)) rfl rfl (ix2 q c)
    (fun b => match b with | ⟨0, _⟩ => fun _ => rfl | ⟨1, _⟩ => fun hb => absurd rfl hb)
    (by show c.val + 256 = 256 + c.val; omega)

/-- Two 256 × 1024 matrices one above the other: row c < 256 of the result is row c of the first … -/
theorem cat0_lo {α : Type} (X Y : S256x1024.Idx → α) (c : Fin 256) (j : Fin 1024) :
    concatenate S512x1024 0 [⟨S256x1024, X⟩, ⟨S256x1024, Y⟩] concatenates_S256x1024_S256x1024_S512x1024_d0 (ix2 (Cert.Spec.lo5 c) j)
      = X (ix2 c j) :=
  concatenate_pair_apply_left (0 : Fin 2) X Y concatenates_S256x1024_S256x1024_S512x1024_d0 (ix2 (Cert.Spec.lo5 c) j) rfl (ix2 c j)
    (fun b => match b with | ⟨0, _⟩ => rfl | ⟨1, _⟩ => rfl)

/-- … and row 256 + c is row c of the second. -/
theorem cat0_hi {α : Type} (X Y : S256x1024.Idx → α) (c : Fin 256) (j : Fin 1024) :
    concatenate S512x1024 0 [⟨S256x1024, X⟩, ⟨S256x1024, Y⟩] concatenates_S256x1024_S256x1024_S512x1024_d0 (ix2 (Cert.Spec.hi5 c) j)
      = Y (ix2 c j) :=
  concatenate_pair_apply_right (0 : Fin 2) X Y concatenates_S256x1024_S256x1024_S512x1024_d0 (ix2 (Cert.Spec.hi5 c) j) rfl rfl (ix2 c j)
    (fun b => match b with | ⟨0, _⟩ => fun hb => absurd rfl hb | ⟨1, _⟩ => fun _ => rfl)
    (by show c.val + 256 = 256 + c.val; omega)

/-! ## The stacked table: the object block through the two halves of the fused weights -/

/-- The object block, its unit axis dropped: entry (p, k) is the block's (0, p, k). -/
theorem pay3_apply (x0 : Vec Ideal S1x256x1024 .f32) (p : Fin 256) (k : Fin 1024) :
    k0_pay3 (F := Ideal) x0 (ix2 p k) = x0 (ix3 (0 : Fin 1) p k) := by
  unfold k0_pay3
  exact shapeCast_1ab_ab_apply x0 shapeCasts_S1x256x1024_S256x1024 p k

/-- Row c < 256 of the table: object row c through the left half of the weights. -/
theorem pay5_lo (x0 : Vec Ideal S1x256x1024 .f32) (x8 : Vec Ideal S1024x2048 .bf16) (c : Fin 256) (j : Fin 1024) :
    k0_pay5 (F := Ideal) x0 x8 (ix2 (Cert.Spec.lo5 c) j)
      = ∑ k : Fin 1024, x0 (ix3 (0 : Fin 1) c k) * x8 (ix2 k (Cert.Spec.lo2 j)) := by
  unfold k0_pay5
  rw [cat0_lo, slice2_axis1_apply 0 _ slices_S256x2048_o0_0_S256x1024 c j (Cert.Spec.lo2 j) (by show j.val = 0 + j.val; omega),
    truncf_apply, shapeCast_self, mmW_apply]
  simp only [pay3_apply]

/-- Row 256 + c of the table: object row c through the right half of the weights. -/
theorem pay5_hi (x0 : Vec Ideal S1x256x1024 .f32) (x8 : Vec Ideal S1024x2048 .bf16) (c : Fin 256) (j : Fin 1024) :
    k0_pay5 (F := Ideal) x0 x8 (ix2 (Cert.Spec.hi5 c) j)
      = ∑ k : Fin 1024, x0 (ix3 (0 : Fin 1) c k) * x8 (ix2 k (Cert.Spec.hi2 j)) := by
  unfold k0_pay5
  rw [cat0_hi, slice2_axis1_apply 1024 _ slices_S256x2048_o0_1024_S256x1024 c j (Cert.Spec.hi2 j) (by show 1024 + j.val = 1024 + j.val; rfl),
    truncf_apply, shapeCast_self, mmW_apply]
  simp only [pay3_apply]

/-! ## The indicator matrix -/

theorem cmpi_eq_self (a : BitVec 32) : IntOp.cmpi .eq a a = 1#1 := by simp [IntOp.cmpi]
theorem cmpi_eq_of_ne {a b : BitVec 32} (h : a ≠ b) : IntOp.cmpi .eq a b = 0#1 := by
  have hb : (a == b) = false := beq_eq_false_iff_ne.mpr h
  simp [IntOp.cmpi, hb]

/-- Two row numbers below 256 are the same word only when they are the same number. -/
theorem word_ne_of_ne {c s : Fin 256} (h : c ≠ s) : BitVec.ofNat 32 c.val ≠ BitVec.ofNat 32 s.val := by
  intro e
  have e' := congrArg BitVec.toNat e
  simp only [BitVec.toNat_ofNat] at e'
  have hc := c.isLt
  have hs := s.isLt
  exact h (Fin.ext (by omega))

/-- The comparison of two row words, widened and converted: 1 when they are the same row, else 0. -/
theorem indicator_word (c s : Fin 256) :
    FloatOps.sitofp (F := Ideal) .f32 ((IntOp.cmpi .eq (BitVec.ofNat 32 c.val) (BitVec.ofNat 32 s.val)).setWidth 32)
      = if c = s then (1 : EReal) else 0 := by
  show (((((IntOp.cmpi .eq (BitVec.ofNat 32 c.val) (BitVec.ofNat 32 s.val)).setWidth 32).toInt : ℝ)) : EReal) = _
  by_cases h : c = s
  · subst h
    rw [if_pos rfl, cmpi_eq_self]
    simp
  · rw [if_neg h, cmpi_eq_of_ne (word_ne_of_ne h)]
    simp

/-- Entry (q, c) of one half of the indicator matrix: 1 when c is row q's word, else 0. -/
theorem onehot_apply (w : Vec Ideal S1x256x1 .i32) (q c s : Fin 256)
    (h : (w (ix3 (0 : Fin 1) q (0 : Fin 1)) : BitVec 32) = BitVec.ofNat 32 s.val) :
    (truncf .bf16 (sitofp (F := Ideal) .f32 (extui 32 (cmpi .eq (iota .tc S256x256 32 [1] iota_S256x256_d1_w32)
        (broadcastTo S256x256 (shapeCast S256x1 w shapeCasts_S1x256x1_S256x1) broadcasts_S256x1_S256x256)) natLt_1_32)) bitsLt_bf16_f32
      : FVec Ideal S256x256 .bf16) (ix2 q c) = if c = s then (1 : EReal) else 0 := by
  show FloatOps.sitofp (F := Ideal) .f32 ((IntOp.cmpi .eq (iota .tc S256x256 32 [1] iota_S256x256_d1_w32 (ix2 q c))
        (broadcastTo S256x256 (shapeCast S256x1 w shapeCasts_S1x256x1_S256x1) broadcasts_S256x1_S256x256 (ix2 q c))).setWidth 32) = _
  rw [iota_single_apply, col256_apply, h]
  exact indicator_word c s

/-- Entry (q, j) of trip's value, when row q's subject word is s and its object word is o. -/
theorem pay13_apply (x0 : Vec Ideal S1x256x1024 .f32) (x8 : Vec Ideal S1024x2048 .bf16)
    (v37 v40 : Vec Ideal S1x256x1 .i32) (v55 : Vec Ideal S1x256x1024 .f32) (v58 : Vec Ideal S1x256x1 .f32)
    (v61 : Vec Ideal S1024x1024 .bf16) (v65 : Vec Ideal S1x1024 .f32)
    (q : Fin 256) (j : Fin 1024) (s o : Fin 256)
    (hs : (v37 (ix3 (0 : Fin 1) q (0 : Fin 1)) : BitVec 32) = BitVec.ofNat 32 s.val)
    (ho : (v40 (ix3 (0 : Fin 1) q (0 : Fin 1)) : BitVec 32) = BitVec.ofNat 32 o.val) :
    (k0_pay6 (F := Ideal) (k0_pay1 (k0_pay5 x0 x8) (iota .tc S256x256 32 [1] iota_S256x256_d1_w32) v37 v40 v55 v61 v65) (k0_pay2 v58)
        (ix3 (0 : Fin 1) q j) : EReal)
      = (max (((((∑ k : Fin 1024, (x0 (ix3 (0 : Fin 1) s k) : EReal) * (x8 (ix2 k (Cert.Spec.lo2 j)) : EReal))
                + (∑ k : Fin 1024, (x0 (ix3 (0 : Fin 1) o k) : EReal) * (x8 (ix2 k (Cert.Spec.hi2 j)) : EReal)))
              + (∑ k : Fin 1024, (v55 (ix3 (0 : Fin 1) q k) : EReal) * (v61 (ix2 k j) : EReal)))
            + (v65 (ix2 (0 : Fin 1) j) : EReal))) 0
          + (v55 (ix3 (0 : Fin 1) q j) : EReal)) * (v58 (ix3 (0 : Fin 1) q (0 : Fin 1)) : EReal) := by
  unfold k0_pay6 k0_pay1 k0_pay2
  rw [shapeCast_ab_1ab_apply]
  simp only [mulf_apply, addf_apply, maximumf_apply, broadcast_apply]
  rw [mmT_apply, mmR_apply, col1024_apply, broadcastTo_1b_ab_apply, shapeCast_self, shapeCast_self]
  rw [Cert.Spec.sum_halves512]
  simp only [cat1_lo, cat1_hi, onehot_apply v37 q _ s hs, onehot_apply v40 q _ o ho, pay5_lo, pay5_hi, truncf_apply, shapeCast_1ab_ab_apply]
  rw [Cert.Spec.sum_indicator_mul, Cert.Spec.sum_indicator_mul, Ideal.ofBits_def, Ideal.ofBits_zero_f32]

end Cert.KernelIdeal.Pay

end
-- ==== Proof.KHost.lean ====
/-
  The blocks the kernel body is given at grid point t, read at an entry in terms of the program's arguments.

  Grid point t is batch t. The object, attribute, relation and mask windows hand the body batch t's slab of
  their arrays. The four weight windows hold, at every point, the whole of a matrix the host code cut out of
  the stacked weights before the launch: the upper and lower halves of the attribute weights, the first and
  last thirds of the relation weights side by side (2048 columns), and the middle third; changes of float
  format are the identity. The two bias windows hold the bias vectors as one-row matrices. The two edge
  windows hold, column by column, the edge words clamped into [0, 255] — the words themselves when every
  word is a row number below 256. Last: where block t of an output array lies.
-/
import proofs.«429933_j4080218931959_3_alg».proof.Proof.Gen.KernelIdeal.Frame
import proofs.«429933_j4080218931959_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

set_option maxRecDepth 16384

noncomputable section

namespace Cert.KernelIdeal.Host

open Cert.KernelIdeal Cert.KernelIdeal.Gen Cert.Spec
open Idealize.ShloMosaic Idealize.ShloMosaic.TcCoe Idealize.ShloMosaic.ValueIdx
open Idealize.SL Idealize.SL.Sem

variable (m : (ℓ : Loc nD τ sig) → Buf (Elt Ideal) ℓ)

/-- The grid has 128 points. -/
theorem N_eq : cfg0.N = 128 := N_0

/-- Grid point t as a batch number. -/
def batch (t : Fin cfg0.N) : Fin 128 := ⟨t.val, lt_of_lt_of_eq t.isLt N_eq⟩

/-! ## The argument arrays, by their literal types -/

abbrev arr0 (c : Dev nD) : ObjArr := m ((c : Thread nD τ).loc main_arg0)
abbrev arr1 (c : Dev nD) : ObjArr := m ((c : Thread nD τ).loc main_arg1)
abbrev arr2 (c : Dev nD) : RelArr := m ((c : Thread nD τ).loc main_arg2)
abbrev arr3 (c : Dev nD) : EdgeArr := m ((c : Thread nD τ).loc main_arg3)
abbrev arr4 (c : Dev nD) : MaskArr := m ((c : Thread nD τ).loc main_arg4)
abbrev arr5 (c : Dev nD) : WAttr := m ((c : Thread nD τ).loc main_arg5)
abbrev arr6 (c : Dev nD) : Bias := m ((c : Thread nD τ).loc main_arg6)
abbrev arr7 (c : Dev nD) : WRela := m ((c : Thread nD τ).loc main_arg7)
abbrev arr8 (c : Dev nD) : Bias := m ((c : Thread nD τ).loc main_arg8)

/-! ## The input blocks at point t, by their literal types -/

abbrev blk0 (c : Dev nD) (t : Fin cfg0.N) : Vec Ideal S1x256x1024 .f32 := iblk m c 0 t
abbrev blk1 (c : Dev nD) (t : Fin cfg0.N) : Vec Ideal S1x256x1024 .f32 := iblk m c 1 t
abbrev blk2 (c : Dev nD) (t : Fin cfg0.N) : Vec Ideal S1x512x1024 .f32 := iblk m c 2 t
abbrev blk3 (c : Dev nD) (t : Fin cfg0.N) : Vec Ideal S1x512x1 .i32 := iblk m c 3 t
abbrev blk4 (c : Dev nD) (t : Fin cfg0.N) : Vec Ideal S1x512x1 .i32 := iblk m c 4 t
abbrev blk5 (c : Dev nD) (t : Fin cfg0.N) : Vec Ideal S1x512x1 .f32 := iblk m c 5 t
abbrev blk6 (c : Dev nD) (t : Fin cfg0.N) : Vec Ideal S1024x1024 .bf16 := iblk m c 6 t
abbrev blk7 (c : Dev nD) (t : Fin cfg0.N) : Vec Ideal S1024x1024 .bf16 := iblk m c 7 t
abbrev blk8 (c : Dev nD) (t : Fin cfg0.N) : Vec Ideal S1024x2048 .bf16 := iblk m c 8 t
abbrev blk9 (c : Dev nD) (t : Fin cfg0.N) : Vec Ideal S1024x1024 .bf16 := iblk m c 9 t
abbrev blk10 (c : Dev nD) (t : Fin cfg0.N) : Vec Ideal S1x1024 .f32 := iblk m c 10 t
abbrev blk11 (c : Dev nD) (t : Fin cfg0.N) : Vec Ideal S1x1024 .f32 := iblk m c 11 t

/-! ## Each block at an entry -/

/-- The index maps over the grid: each three-axis window's block at point t is block (t, 0, 0) of its array. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_12.index t (0 : Fin 3) = t.val ∧ win0_12.index t (1 : Fin 3) = 0 ∧ win0_12.index t (2 : Fin 3) = 0)
    ∧ (win0_13.index t (0 : Fin 3) = t.val ∧ win0_13.index t (1 : Fin 3) = 0 ∧ win0_13.index t (2 : Fin 3) = 0) :=
  (by decide +kernel : ∀ t : Fin grid0.N, _)

theorem blk0_apply (c : Dev nD) (t : Fin cfg0.N) (p : Fin 256) (k : Fin 1024) :
    (blk0 m c t (ix3 (0 : Fin 1) p k) : EReal) = arr0 m c (ix3 (batch t) p k) := by
  obtain ⟨⟨e0, e1, e2⟩, -⟩ := idx_facts t
  show V m c main_arg0 (((cfg0.win 0).blk t).view.emb (ix3 (0 : Fin 1) p k)) = _
  rw [V_main_arg0]
  show (m ((c : Thread nD τ).loc main_arg0) : S128x256x1024.Idx → EReal) _ = (m ((c : Thread nD τ).loc main_arg0) : S128x256x1024.Idx → EReal) _
  congr 1
  funext a
  apply Fin.ext
  match a with
  | ⟨0, _⟩ => show win0_0.index t (0 : Fin 3) * 1 + 1 * 0 = t.val; omega
  | ⟨1, _⟩ => show win0_0.index t (1 : Fin 3) * 256 + 1 * p.val = p.val; omega
  | ⟨2, _⟩ => show win0_0.index t (2 : Fin 3) * 1024 + 1 * k.val = k.val; omega

theorem blk1_apply (c : Dev nD) (t : Fin cfg0.N) (p : Fin 256) (k : Fin 1024) :
    (blk1 m c t (ix3 (0 : Fin 1) p k) : EReal) = arr1 m c (ix3 (batch t) p k) := by
  obtain ⟨-, ⟨e0, e1, e2⟩, -⟩ := idx_facts t
  show V m c main_arg1 (((cfg0.win 1).blk t).view.emb (ix3 (0 : Fin 1) p k)) = _
  rw [V_main_arg1]
  show (m ((c : Thread nD τ).loc main_arg1) : S128x256x1024.Idx → EReal) _ = (m ((c : Thread nD τ).loc main_arg1) : S128x256x1024.Idx → EReal) _
  congr 1
  funext a
  apply Fin.ext
  match a with
  | ⟨0, _⟩ => show win0_1.index t (0 : Fin 3) * 1 + 1 * 0 = t.val; omega
  | ⟨1, _⟩ => show win0_1.index t (1 : Fin 3) * 256 + 1 * p.val = p.val; omega
  | ⟨2, _⟩ => show win0_1.index t (2 : Fin 3) * 1024 + 1 * k.val = k.val; omega

theorem blk2_apply (c : Dev nD) (t : Fin cfg0.N) (r : Fin 512) (k : Fin 1024) :
    (blk2 m c t (ix3 (0 : Fin 1) r k) : EReal) = arr2 m c (ix3 (batch t) r k) := by
  obtain ⟨-, -, ⟨e0, e1, e2⟩, -⟩ := idx_facts t
  show V m c main_arg2 (((cfg0.win 2).blk t).view.emb (ix3 (0 : Fin 1) r k)) = _
  rw [V_main_arg2]
  show (m ((c : Thread nD τ).loc main_arg2) : S128x512x1024.Idx → EReal) _ = (m ((c : Thread nD τ).loc main_arg2) : S128x512x1024.Idx → EReal) _
  congr 1
  funext a
  apply Fin.ext
  match a with
  | ⟨0, _⟩ => show win0_2.index t (0 : Fin 3) * 1 + 1 * 0 = t.val; omega
  | ⟨1, _⟩ => show win0_2.index t (1 : Fin 3) * 512 + 1 * r.val = r.val; omega
  | ⟨2, _⟩ => show win0_2.index t (2 : Fin 3) * 1024 + 1 * k.val = k.val; omega

/-- A word below 256 clamped into [0, 255] is the word. -/
theorem clamp_word (w : BitVec 32) (h : w.toNat < 256) : IntOp.minsi 255#32 (IntOp.maxsi 0#32 w) = w := by
  have hti : w.toInt = w.toNat := StableHlo.Predicate.toInt_eq_toNat_of_lt (by omega)
  have h0 : (0#32 : BitVec 32).toInt = 0 := by decide
  have h255 : (255#32 : BitVec 32).toInt = 255 := by decide
  have hmax : IntOp.maxsi 0#32 w = w := by
    unfold IntOp.maxsi
    rw [if_neg]
    simp only [BitVec.slt, hti, h0, decide_eq_true_eq]
    omega
  rw [hmax]
  unfold IntOp.minsi
  rw [if_neg]
  simp only [BitVec.slt, hti, h255, decide_eq_true_eq]
  omega

/-- The clamped edge array as the host code leaves it. -/
abbrev clamped (e : EdgeArr) : EdgeArr :=
  minsi (broadcastInDim S128x512x2 ![] bcast_S_S128x512x2 (constantI S_ 32 255#32))
    (maxsi (broadcastInDim S128x512x2 ![] bcast_S_S128x512x2 (constantI S_ 32 0#32)) e)

theorem clamped_apply (e : EdgeArr) (hE : InRange e) (i : S128x512x2.Idx) : clamped e i = e i := by
  show IntOp.minsi 255#32 (IntOp.maxsi 0#32 (e i)) = e i
  exact clamp_word _ (hE i)

theorem v13_eq (c : Dev nD) : (V m c main_v13 : S128x512x1.Idx → BitVec 32)
    = extractStridedSlice S128x512x1 ![0, 0, 0] (clamped (arr3 m c)) slices_S128x512x2_S128x512x1_0_0_0 := by
  dsimp only [Gen.V]
  simp only [Gen.hostOps0, Gen.hostOps0_1, Gen.hostOps0_2, List.flatten_cons, List.flatten_nil, List.append_nil, List.cons_append, List.nil_append]
  after_results
  rfl

theorem v14_eq (c : Dev nD) : (V m c main_v14 : S128x512x1.Idx → BitVec 32)
    = extractStridedSlice S128x512x1 ![0, 0, 1] (clamped (arr3 m c)) slices_S128x512x2_S128x512x1_0_0_1 := by
  dsimp only [Gen.V]
  simp only [Gen.hostOps0, Gen.hostOps0_1, Gen.hostOps0_2, List.flatten_cons, List.flatten_nil, List.append_nil, List.cons_append, List.nil_append]
  after_results
  rfl

theorem v13_at (c : Dev nD) (hE : InRange (arr3 m c)) (b : Fin 128) (r : Fin 512) :
    (V m c main_v13 : S128x512x1.Idx → BitVec 32) (ix3 b r (0 : Fin 1)) = arr3 m c (ix3 b r (0 : Fin 2)) := by
  rw [v13_eq]
  refine (extractStridedSlice_apply (s := S128x512x2) (t := S128x512x1) _ _ _ _ (ix3 b r (0 : Fin 2)) ?_).trans (clamped_apply _ hE _)
  intro a
  match a with
  | ⟨0, _⟩ => show b.val = 0 + b.val; omega
  | ⟨1, _⟩ => show r.val = 0 + r.val; omega
  | ⟨2, _⟩ => show (0 : Nat) = 0 + 0; rfl

theorem v14_at (c : Dev nD) (hE : InRange (arr3 m c)) (b : Fin 128) (r : Fin 512) :
    (V m c main_v14 : S128x512x1.Idx → BitVec 32) (ix3 b r (0 : Fin 1)) = arr3 m c (ix3 b r (1 : Fin 2)) := by
  rw [v14_eq]
  refine (extractStridedSlice_apply (s := S128x512x2) (t := S128x512x1) _ _ _ _ (ix3 b r (1 : Fin 2)) ?_).trans (clamped_apply _ hE _)
  intro a
  match a with
  | ⟨0, _⟩ => show b.val = 0 + b.val; omega
  | ⟨1, _⟩ => show r.val = 0 + r.val; omega
  | ⟨2, _⟩ => show (1 : Nat) = 1 + 0; rfl

theorem word_eq (w : BitVec 32) (h : w.toNat < 256) : w = BitVec.ofNat 32 (eIdx w).val := by
  rw [eIdx_val h]
  apply BitVec.eq_of_toNat_eq
  simp only [BitVec.toNat_ofNat]
  omega

/-- The subject column: the clamped word is the word itself, written as the row number it names. -/
theorem blk3_apply (c : Dev nD) (hE : InRange (arr3 m c)) (t : Fin cfg0.N) (r : Fin 512) :
    (blk3 m c t (ix3 (0 : Fin 1) r (0 : Fin 1)) : BitVec 32) = BitVec.ofNat 32 (eIdx (arr3 m c (ix3 (batch t) r (0 : Fin 2)))).val := by
  obtain ⟨-, -, -, ⟨e0, e1, e2⟩, -⟩ := idx_facts t
  have hemb : ((cfg0.win 3).blk t).view.emb (ix3 (0 : Fin 1) r (0 : Fin 1)) = (ix3 (batch t) r (0 : Fin 1) : S128x512x1.Idx) := by
    funext a
    apply Fin.ext
    match a with
    | ⟨0, _⟩ => show win0_3.index t (0 : Fin 3) * 1 + 1 * 0 = t.val; omega
    | ⟨1, _⟩ => show win0_3.index t (1 : Fin 3) * 512 + 1 * r.val = r.val; omega
    | ⟨2, _⟩ => show win0_3.index t (2 : Fin 3) * 1 + 1 * 0 = 0; omega
  show (V m c main_v13 : S128x512x1.Idx → BitVec 32) (((cfg0.win 3).blk t).view.emb (ix3 (0 : Fin 1) r (0 : Fin 1))) = _
  rw [hemb, v13_at m c hE]
  exact word_eq _ (hE _)

/-- The object column, likewise. -/
theorem blk4_apply (c : Dev nD) (hE : InRange (arr3 m c)) (t : Fin cfg0.N) (r : Fin 512) :
    (blk4 m c t (ix3 (0 : Fin 1) r (0 : Fin 1)) : BitVec 32) = BitVec.ofNat 32 (eIdx (arr3 m c (ix3 (batch t) r (1 : Fin 2)))).val := by
  obtain ⟨-, -, -, -, ⟨e0, e1, e2⟩, -⟩ := idx_facts t
  have hemb : ((cfg0.win 4).blk t).view.emb (ix3 (0 : Fin 1) r (0 : Fin 1)) = (ix3 (batch t) r (0 : Fin 1) : S128x512x1.Idx) := by
    funext a
    apply Fin.ext
    match a with
    | ⟨0, _⟩ => show win0_4.index t (0 : Fin 3) * 1 + 1 * 0 = t.val; omega
    | ⟨1, _⟩ => show win0_4.index t (1 : Fin 3) * 512 + 1 * r.val = r.val; omega
    | ⟨2, _⟩ => show win0_4.index t (2 : Fin 3) * 1 + 1 * 0 = 0; omega
  show (V m c main_v14 : S128x512x1.Idx → BitVec 32) (((cfg0.win 4).blk t).view.emb (ix3 (0 : Fin 1) r (0 : Fin 1))) = _
  rw [hemb, v14_at m c hE]
  exact word_eq _ (hE _)

theorem blk5_apply (c : Dev nD) (t : Fin cfg0.N) (r : Fin 512) :
    (blk5 m c t (ix3 (0 : Fin 1) r (0 : Fin 1)) : EReal) = arr4 m c (ix3 (batch t) r (0 : Fin 1)) := by
  obtain ⟨-, -, -, -, -, ⟨e0, e1, e2⟩, -⟩ := idx_facts t
  show V m c main_arg4 (((cfg0.win 5).blk t).view.emb (ix3 (0 : Fin 1) r (0 : Fin 1))) = _
  rw [V_main_arg4]
  show (m ((c : Thread nD τ).loc main_arg4) : S128x512x1.Idx → EReal) _ = (m ((c : Thread nD τ).loc main_arg4) : S128x512x1.Idx → EReal) _
  congr 1
  funext a
  apply Fin.ext
  match a with
  | ⟨0, _⟩ => show win0_5.index t (0 : Fin 3) * 1 + 1 * 0 = t.val; omega
  | ⟨1, _⟩ => show win0_5.index t (1 : Fin 3) * 512 + 1 * r.val = r.val; omega
  | ⟨2, _⟩ => show win0_5.index t (2 : Fin 3) * 1 + 1 * 0 = 0; omega

/-! ## Where an output's block lies -/

/-- Block t of the attribute array read through its window: entry (0, p, j) of the block is entry (t, p, j). -/
theorem out12_read (G : ObjArr) (t : Fin cfg0.N) (p : Fin 256) (j : Fin 1024) :
    ((((cfg0.win 12).blk t).view.read (Elt Ideal) G : Vec Ideal S1x256x1024 .f32) (ix3 (0 : Fin 1) p j) : EReal) = G (ix3 (batch t) p j) := by
  obtain ⟨-, -, -, -, -, -, ⟨e0, e1, e2⟩, -⟩ := idx_facts t
  show (G : S128x256x1024.Idx → EReal) (((cfg0.win 12).blk t).view.emb (ix3 (0 : Fin 1) p j)) = _
  congr 1
  funext a
  apply Fin.ext
  match a with
  | ⟨0, _⟩ => show win0_12.index t (0 : Fin 3) * 1 + 1 * 0 = t.val; omega
  | ⟨1, _⟩ => show win0_12.index t (1 : Fin 3) * 256 + 1 * p.val = p.val; omega
  | ⟨2, _⟩ => show win0_12.index t (2 : Fin 3) * 1024 + 1 * j.val = j.val; omega

/-- Block t of the relation array, likewise. -/
theorem out13_read (G : RelArr) (t : Fin cfg0.N) (r : Fin 512) (j : Fin 1024) :
    ((((cfg0.win 13).blk t).view.read (Elt Ideal) G : Vec Ideal S1x512x1024 .f32) (ix3 (0 : Fin 1) r j) : EReal) = G (ix3 (batch t) r j) := by
  obtain ⟨-, -, -, -, -, -, -, ⟨e0, e1, e2⟩⟩ := idx_facts t
  show (G : S128x512x1024.Idx → EReal) (((cfg0.win 13).blk t).view.emb (ix3 (0 : Fin 1) r j)) = _
  congr 1
  funext a
  apply Fin.ext
  match a with
  | ⟨0, _⟩ => show win0_13.index t (0 : Fin 3) * 1 + 1 * 0 = t.val; omega
  | ⟨1, _⟩ => show win0_13.index t (1 : Fin 3) * 512 + 1 * r.val = r.val; omega
  | ⟨2, _⟩ => show win0_13.index t (2 : Fin 3) * 1024 + 1 * j.val = j.val; omega

/-- An entry is in point t's block of the attribute array iff each coordinate is in the block's range. -/
theorem mem_blk12 (t : Fin cfg0.N) (i : S128x256x1024.Idx) :
    i ∈ ((cfg0.win 12).blk t).view.set ↔ ∀ a : Fin 3, win0_12.index t a * S1x256x1024.size a ≤ (i a).val ∧ (i a).val < win0_12.index t a * S1x256x1024.size a + S1x256x1024.size a := by
  show i ∈ ((View.whole main_v15_0).slice (win0_12.rect t)).set ↔ _
  rw [View.set_slice_whole, Rect.mem_set_unit]
  exact Iff.rfl

theorem mem_blk13 (t : Fin cfg0.N) (i : S128x512x1024.Idx) :
    i ∈ ((cfg0.win 13).blk t).view.set ↔ ∀ a : Fin 3, win0_13.index t a * S1x512x1024.size a ≤ (i a).val ∧ (i a).val < win0_13.index t a * S1x512x1024.size a + S1x512x1024.size a := by
  show i ∈ ((View.whole main_v15_1).slice (win0_13.rect t)).set ↔ _
  rw [View.set_slice_whole, Rect.mem_set_unit]
  exact Iff.rfl

/-- Every entry of the attribute array lies in some point's block. -/
theorem cover12 (i : S128x256x1024.Idx) :
    ∃ t : Fin cfg0.N, (cfg0.win 12).flush t = true ∧ i ∈ ((cfg0.win 12).blk t).view.set := by
  have hi0 : (i 0).val < 128 := (i 0).isLt
  have hi1 : (i 1).val < 256 := (i 1).isLt
  have hi2 : (i 2).val < 1024 := (i 2).isLt
  have hN : (i 0).val < cfg0.N := by rw [N_eq]; exact hi0
  obtain ⟨-, -, -, -, -, -, ⟨e0, e1, e2⟩, -⟩ := idx_facts ⟨(i 0).val, hN⟩
  refine ⟨⟨(i 0).val, hN⟩, flush0_12 _, ?_⟩
  rw [mem_blk12]
  intro a
  match a with
  | ⟨0, _⟩ => show win0_12.index ⟨(i 0).val, hN⟩ (0 : Fin 3) * 1 ≤ (i 0).val ∧ (i 0).val < win0_12.index ⟨(i 0).val, hN⟩ (0 : Fin 3) * 1 + 1; simp only [] at e0; omega
  | ⟨1, _⟩ => show win0_12.index ⟨(i 0).val, hN⟩ (1 : Fin 3) * 256 ≤ (i 1).val ∧ (i 1).val < win0_12.index ⟨(i 0).val, hN⟩ (1 : Fin 3) * 256 + 256; omega
  | ⟨2, _⟩ => show win0_12.index ⟨(i 0).val, hN⟩ (2 : Fin 3) * 1024 ≤ (i 2).val ∧ (i 2).val < win0_12.index ⟨(i 0).val, hN⟩ (2 : Fin 3) * 1024 + 1024; omega

/-- Every entry of the relation array lies in some point's block. -/
theorem cover13 (i : S128x512x1024.Idx) :
    ∃ t : Fin cfg0.N, (cfg0.win 13).flush t = true ∧ i ∈ ((cfg0.win 13).blk t).view.set := by
  have hi0 : (i 0).val < 128 := (i 0).isLt
  have hi1 : (i 1).val < 512 := (i 1).isLt
  have hi2 : (i 2).val < 1024 := (i 2).isLt
  have hN : (i 0).val < cfg0.N := by rw [N_eq]; exact hi0
  obtain ⟨-, -, -, -, -, -, -, ⟨e0, e1, e2⟩⟩ := idx_facts ⟨(i 0).val, hN⟩
  refine ⟨⟨(i 0).val, hN⟩, flush0_13 _, ?_⟩
  rw [mem_blk13]
  intro a
  match a with
  | ⟨0, _⟩ => show win0_13.index ⟨(i 0).val, hN⟩ (0 : Fin 3) * 1 ≤ (i 0).val ∧ (i 0).val < win0_13.index ⟨(i 0).val, hN⟩ (0 : Fin 3) * 1 + 1; simp only [] at e0; omega
  | ⟨1, _⟩ => show win0_13.index ⟨(i 0).val, hN⟩ (1 : Fin 3) * 512 ≤ (i 1).val ∧ (i 1).val < win0_13.index ⟨(i 0).val, hN⟩ (1 : Fin 3) * 512 + 512; omega
  | ⟨2, _⟩ => show win0_13.index ⟨(i 0).val, hN⟩ (2 : Fin 3) * 1024 ≤ (i 2).val ∧ (i 2).val < win0_13.index ⟨(i 0).val, hN⟩ (2 : Fin 3) * 1024 + 1024; omega

end Cert.KernelIdeal.Host

end
-- ==== Proof.KHostW.lean ====
/-
  The weight and bias blocks the kernel body is given, read at an entry in terms of the program's arguments.

  These six windows hold, at every grid point, the whole of a matrix the host code made before the launch: the
  upper and the lower half of the attribute weights; the first and the last third of the relation weights set
  side by side (column j and column 1024 + j); the middle third; and the two bias vectors as one-row matrices.
  Changes of float format are the identity over the extended reals.
-/
import proofs.«429933_j4080218931959_3_alg».proof.Proof.KHost

set_option maxRecDepth 16384

noncomputable section

namespace Cert.KernelIdeal.Host

open Cert.KernelIdeal Cert.KernelIdeal.Gen Cert.Spec
open Idealize.ShloMosaic Idealize.ShloMosaic.TcCoe Idealize.ShloMosaic.ValueIdx
open Idealize.SL Idealize.SL.Sem

variable (m : (ℓ : Loc nD τ sig) → Buf (Elt Ideal) ℓ)

/-! ## Each window's block is its whole array -/

theorem idx6 : ∀ t : Fin cfg0.N, win0_6.index t (0 : Fin 2) = 0 ∧ win0_6.index t (1 : Fin 2) = 0 :=
  (by decide +kernel : ∀ t : Fin grid0.N, _)

/-- The block of window 6 at any point is its whole array: block index (0, 0), the block as large as the array. -/
theorem blk6_read (c : Dev nD) (t : Fin cfg0.N) (y : S1024x1024.Idx) :
    (blk6 m c t y : EReal) = (V m c main_v1 : S1024x1024.Idx → EReal) y := by
  obtain ⟨h0, h1⟩ := idx6 t
  unfold blk6 iblk
  rw [View.read_apply]
  show (V m c main_v1 : S1024x1024.Idx → EReal) _ = (V m c main_v1 : S1024x1024.Idx → EReal) _
  congr 1
  funext a
  apply Fin.ext
  match a with
  | ⟨0, _⟩ => show win0_6.index t (0 : Fin 2) * 1024 + 1 * (y 0).val = (y 0).val; rw [h0]; omega
  | ⟨1, _⟩ => show win0_6.index t (1 : Fin 2) * 1024 + 1 * (y 1).val = (y 1).val; rw [h1]; omega

theorem idx7 : ∀ t : Fin cfg0.N, win0_7.index t (0 : Fin 2) = 0 ∧ win0_7.index t (1 : Fin 2) = 0 :=
  (by decide +kernel : ∀ t : Fin grid0.N, _)

/-- The block of window 7 at any point is its whole array: block index (0, 0), the block as large as the array. -/
theorem blk7_read (c : Dev nD) (t : Fin cfg0.N) (y : S1024x1024.Idx) :
    (blk7 m c t y : EReal) = (V m c main_v3 : S1024x1024.Idx → EReal) y := by
  obtain ⟨h0, h1⟩ := idx7 t
  unfold blk7 iblk
  rw [View.read_apply]
  show (V m c main_v3 : S1024x1024.Idx → EReal) _ = (V m c main_v3 : S1024x1024.Idx → EReal) _
  congr 1
  funext a
  apply Fin.ext
  match a with
  | ⟨0, _⟩ => show win0_7.index t (0 : Fin 2) * 1024 + 1 * (y 0).val = (y 0).val; rw [h0]; omega
  | ⟨1, _⟩ => show win0_7.index t (1 : Fin 2) * 1024 + 1 * (y 1).val = (y 1).val; rw [h1]; omega

theorem idx8 : ∀ t : Fin cfg0.N, win0_8.index t (0 : Fin 2) = 0 ∧ win0_8.index t (1 : Fin 2) = 0 :=
  (by decide +kernel : ∀ t : Fin grid0.N, _)

/-- The block of window 8 at any point is its whole array: block index (0, 0), the block as large as the array. -/
theorem blk8_read (c : Dev nD) (t : Fin cfg0.N) (y : S1024x2048.Idx) :
    (blk8 m c t y : EReal) = (V m c main_v8 : S1024x2048.Idx → EReal) y := by
  obtain ⟨h0, h1⟩ := idx8 t
  unfold blk8 iblk
  rw [View.read_apply]
  show (V m c main_v8 : S1024x2048.Idx → EReal) _ = (V m c main_v8 : S1024x2048.Idx → EReal) _
  congr 1
  funext a
  apply Fin.ext
  match a with
  | ⟨0, _⟩ => show win0_8.index t (0 : Fin 2) * 1024 + 1 * (y 0).val = (y 0).val; rw [h0]; omega
  | ⟨1, _⟩ => show win0_8.index t (1 : Fin 2) * 2048 + 1 * (y 1).val = (y 1).val; rw [h1]; omega

theorem idx9 : ∀ t : Fin cfg0.N, win0_9.index t (0 : Fin 2) = 0 ∧ win0_9.index t (1 : Fin 2) = 0 :=
  (by decide +kernel : ∀ t : Fin grid0.N, _)

/-- The block of window 9 at any point is its whole array: block index (0, 0), the block as large as the array. -/
theorem blk9_read (c : Dev nD) (t : Fin cfg0.N) (y : S1024x1024.Idx) :
    (blk9 m c t y : EReal) = (V m c main_v9 : S1024x1024.Idx → EReal) y := by
  obtain ⟨h0, h1⟩ := idx9 t
  unfold blk9 iblk
  rw [View.read_apply]
  show (V m c main_v9 : S1024x1024.Idx → EReal) _ = (V m c main_v9 : S1024x1024.Idx → EReal) _
  congr 1
  funext a
  apply Fin.ext
  match a with
  | ⟨0, _⟩ => show win0_9.index t (0 : Fin 2) * 1024 + 1 * (y 0).val = (y 0).val; rw [h0]; omega
  | ⟨1, _⟩ => show win0_9.index t (1 : Fin 2) * 1024 + 1 * (y 1).val = (y 1).val; rw [h1]; omega

theorem idx10 : ∀ t : Fin cfg0.N, win0_10.index t (0 : Fin 2) = 0 ∧ win0_10.index t (1 : Fin 2) = 0 :=
  (by decide +kernel : ∀ t : Fin grid0.N, _)

/-- The block of window 10 at any point is its whole array: block index (0, 0), the block as large as the array. -/
theorem blk10_read (c : Dev nD) (t : Fin cfg0.N) (y : S1x1024.Idx) :
    (blk10 m c t y : EReal) = (V m c main_v10 : S1x1024.Idx → EReal) y := by
  obtain ⟨h0, h1⟩ := idx10 t
  unfold blk10 iblk
  rw [View.read_apply]
  show (V m c main_v10 : S1x1024.Idx → EReal) _ = (V m c main_v10 : S1x1024.Idx → EReal) _
  congr 1
  funext a
  apply Fin.ext
  match a with
  | ⟨0, _⟩ => show win0_10.index t (0 : Fin 2) * 1 + 1 * (y 0).val = (y 0).val; rw [h0]; omega
  | ⟨1, _⟩ => show win0_10.index t (1 : Fin 2) * 1024 + 1 * (y 1).val = (y 1).val; rw [h1]; omega

theorem idx11 : ∀ t : Fin cfg0.N, win0_11.index t (0 : Fin 2) = 0 ∧ win0_11.index t (1 : Fin 2) = 0 :=
  (by decide +kernel : ∀ t : Fin grid0.N, _)

/-- The block of window 11 at any point is its whole array: block index (0, 0), the block as large as the array. -/
theorem blk11_read (c : Dev nD) (t : Fin cfg0.N) (y : S1x1024.Idx) :
    (blk11 m c t y : EReal) = (V m c main_v11 : S1x1024.Idx → EReal) y := by
  obtain ⟨h0, h1⟩ := idx11 t
  unfold blk11 iblk
  rw [View.read_apply]
  show (V m c main_v11 : S1x1024.Idx → EReal) _ = (V m c main_v11 : S1x1024.Idx → EReal) _
  congr 1
  funext a
  apply Fin.ext
  match a with
  | ⟨0, _⟩ => show win0_11.index t (0 : Fin 2) * 1 + 1 * (y 0).val = (y 0).val; rw [h0]; omega
  | ⟨1, _⟩ => show win0_11.index t (1 : Fin 2) * 1024 + 1 * (y 1).val = (y 1).val; rw [h1]; omega

/-! ## What the host code put in each array -/

/-- The upper half of the attribute weights, narrowed. -/
theorem v1_eq (c : Dev nD) : @Eq (S1024x1024.Idx → EReal) (V m c main_v1)
    (truncf (F := Ideal) .bf16 (extractStridedSlice S1024x1024 ![0, 0] (arr5 m c) slices_S2048x1024_S1024x1024_0_0) bitsLt_bf16_f32) := by
  dsimp only [Gen.V]
  simp only [Gen.hostOps0, Gen.hostOps0_1, Gen.hostOps0_2, List.flatten_cons, List.flatten_nil, List.append_nil,
    List.cons_append, List.nil_append]
  after_results

/-- The lower half of the attribute weights, narrowed. -/
theorem v3_eq (c : Dev nD) : @Eq (S1024x1024.Idx → EReal) (V m c main_v3)
    (truncf (F := Ideal) .bf16 (extractStridedSlice S1024x1024 ![1024, 0] (arr5 m c) slices_S2048x1024_S1024x1024_1024_0) bitsLt_bf16_f32) := by
  dsimp only [Gen.V]
  simp only [Gen.hostOps0, Gen.hostOps0_1, Gen.hostOps0_2, List.flatten_cons, List.flatten_nil, List.append_nil,
    List.cons_append, List.nil_append]
  after_results

/-- The first and the last third of the relation weights side by side, narrowed. -/
theorem v8_eq (c : Dev nD) : @Eq (S1024x2048.Idx → EReal) (V m c main_v8)
    (truncf (F := Ideal) .bf16
      (concatenate S1024x2048 1
        [⟨S1024x1024, extractStridedSlice S1024x1024 ![0, 0] (arr7 m c) slices_S3072x1024_S1024x1024_0_0⟩,
         ⟨S1024x1024, extractStridedSlice S1024x1024 ![2048, 0] (arr7 m c) slices_S3072x1024_S1024x1024_2048_0⟩]
        concatenates_S1024x1024_S1024x1024_S1024x2048_d1) bitsLt_bf16_f32) := by
  dsimp only [Gen.V]
  simp only [Gen.hostOps0, Gen.hostOps0_1, Gen.hostOps0_2, List.flatten_cons, List.flatten_nil, List.append_nil,
    List.cons_append, List.nil_append]
  after_results

/-- The middle third of the relation weights, narrowed. -/
theorem v9_eq (c : Dev nD) : @Eq (S1024x1024.Idx → EReal) (V m c main_v9)
    (truncf (F := Ideal) .bf16 (extractStridedSlice S1024x1024 ![1024, 0] (arr7 m c) slices_S3072x1024_S1024x1024_1024_0) bitsLt_bf16_f32) := by
  dsimp only [Gen.V]
  simp only [Gen.hostOps0, Gen.hostOps0_1, Gen.hostOps0_2, List.flatten_cons, List.flatten_nil, List.append_nil,
    List.cons_append, List.nil_append]
  after_results

/-- The attribute bias as a one-row matrix. -/
theorem v10_eq (c : Dev nD) : @Eq (S1x1024.Idx → EReal) (V m c main_v10)
    (shapeCast S1x1024 (arr6 m c) shapeCasts_S1024_S1x1024) := by
  dsimp only [Gen.V]
  simp only [Gen.hostOps0, Gen.hostOps0_1, Gen.hostOps0_2, List.flatten_cons, List.flatten_nil, List.append_nil,
    List.cons_append, List.nil_append]
  after_results
  rfl

/-- The relation bias as a one-row matrix. -/
theorem v11_eq (c : Dev nD) : @Eq (S1x1024.Idx → EReal) (V m c main_v11)
    (shapeCast S1x1024 (arr8 m c) shapeCasts_S1024_S1x1024) := by
  dsimp only [Gen.V]
  simp only [Gen.hostOps0, Gen.hostOps0_1, Gen.hostOps0_2, List.flatten_cons, List.flatten_nil, List.append_nil,
    List.cons_append, List.nil_append]
  after_results
  rfl

/-! ## The blocks at an entry -/

theorem blk6_apply (c : Dev nD) (t : Fin cfg0.N) (k j : Fin 1024) :
    (blk6 m c t (ix2 k j) : EReal) = arr5 m c (ix2 (lo2 k) j) := by
  rw [blk6_read, v1_eq, truncf_apply]
  exact slice2_axis0_apply 0 (arr5 m c) _ k j (lo2 k) (by show k.val = 0 + k.val; omega)

theorem blk7_apply (c : Dev nD) (t : Fin cfg0.N) (k j : Fin 1024) :
    (blk7 m c t (ix2 k j) : EReal) = arr5 m c (ix2 (hi2 k) j) := by
  rw [blk7_read, v3_eq, truncf_apply]
  exact slice2_axis0_apply 1024 (arr5 m c) _ k j (hi2 k) rfl

theorem blk8_apply_lo (c : Dev nD) (t : Fin cfg0.N) (k j : Fin 1024) :
    (blk8 m c t (ix2 k (lo2 j)) : EReal) = arr7 m c (ix2 (th0 k) j) := by
  rw [blk8_read, v8_eq, truncf_apply]
  rw [concatenate_pair_apply_left (t := S1024x2048) (s₁ := S1024x1024) (s₂ := S1024x1024) (1 : Fin 2) _ _ _
    (ix2 k (lo2 j)) rfl (ix2 k j : S1024x1024.Idx) (fun b => by
    match b with
    | ⟨0, _⟩ => rfl
    | ⟨1, _⟩ => rfl)]
  exact slice2_axis0_apply 0 (arr7 m c) _ k j (th0 k) (by show k.val = 0 + k.val; omega)

theorem blk8_apply_hi (c : Dev nD) (t : Fin cfg0.N) (k j : Fin 1024) :
    (blk8 m c t (ix2 k (hi2 j)) : EReal) = arr7 m c (ix2 (th2 k) j) := by
  rw [blk8_read, v8_eq, truncf_apply]
  rw [concatenate_pair_apply_right (t := S1024x2048) (s₁ := S1024x1024) (s₂ := S1024x1024) (1 : Fin 2) _ _ _
    (ix2 k (hi2 j)) rfl rfl (ix2 k j : S1024x1024.Idx) (fun b hb => by
    match b, hb with
    | ⟨0, _⟩, _ => rfl
    | ⟨1, _⟩, hb => exact absurd rfl hb) (by show j.val + 1024 = 1024 + j.val; omega)]
  exact slice2_axis0_apply 2048 (arr7 m c) _ k j (th2 k) rfl

theorem blk9_apply (c : Dev nD) (t : Fin cfg0.N) (k j : Fin 1024) :
    (blk9 m c t (ix2 k j) : EReal) = arr7 m c (ix2 (th1 k) j) := by
  rw [blk9_read, v9_eq, truncf_apply]
  exact slice2_axis0_apply 1024 (arr7 m c) _ k j (th1 k) rfl

theorem blk10_apply (c : Dev nD) (t : Fin cfg0.N) (j : Fin 1024) :
    (blk10 m c t (ix2 (0 : Fin 1) j) : EReal) = arr6 m c (ix1 j) := by
  rw [blk10_read, v10_eq]
  exact shapeCast_a_1a_apply (arr6 m c) _ 0 j

theorem blk11_apply (c : Dev nD) (t : Fin cfg0.N) (j : Fin 1024) :
    (blk11 m c t (ix2 (0 : Fin 1) j) : EReal) = arr8 m c (ix1 j) := by
  rw [blk11_read, v11_eq]
  exact shapeCast_a_1a_apply (arr8 m c) _ 0 j

end Cert.KernelIdeal.Host

end
-- ==== Proof.KValue.lean ====
/-
  The two output arrays after the kernel's run, as the specification's functions of the arguments.

  At grid point t the attribute window writes back the body's one store: entry (p, j) is the attribute
  formula over batch t's blocks, which the block reads turn into the specification's entry (t, p, j). The
  relation window writes back the two trips' values: row r = 256k + q is trip k's row q, whose subject and
  object words are row r's edge words — row numbers below 256 by the range hypothesis. Every array entry
  lies in exactly the block of its own batch, so the arrays end as the specification's, whole.
-/
import proofs.«429933_j4080218931959_3_alg».proof.Proof.Gen.KernelIdeal.Value
import proofs.«429933_j4080218931959_3_alg».proof.Proof.Spec
import proofs.«429933_j4080218931959_3_alg».proof.Proof.KPieces
import proofs.«429933_j4080218931959_3_alg».proof.Proof.KPay12
import proofs.«429933_j4080218931959_3_alg».proof.Proof.KPay13
import proofs.«429933_j4080218931959_3_alg».proof.Proof.KHost
import proofs.«429933_j4080218931959_3_alg».proof.Proof.KHostW

set_option maxRecDepth 16384

noncomputable section

open scoped BigOperators

namespace Cert.KernelIdeal.KValue

open Cert.KernelIdeal Cert.KernelIdeal.Gen Cert.KernelIdeal.Host Cert.KernelIdeal.Pieces Cert.KernelIdeal.Pay Cert.Spec
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-! ## The attribute array -/

/-- What point t writes back to the attribute array is block t of the specification's array. -/
theorem flushed12_eq (c : Dev nD) (t : Fin cfg0.N) :
    (dats m 0 c).flushed 12 t
      = ((cfg0.win 12).blk t).view.read (Elt Ideal) (attrOut (arr0 m c) (arr1 m c) (arr5 m c) (arr6 m c)) := by
  rw [Cert.KernelIdeal.Value.flushed12_A, piece12]
  refine funext fun (y : S1x256x1024.Idx) => ?_
  obtain ⟨z, p, j, rfl⟩ : ∃ (z : Fin 1) (p : Fin 256) (j : Fin 1024), y = ix3 z p j := ⟨y 0, y 1, y 2, eq_ix3 y⟩
  obtain rfl : z = 0 := Subsingleton.elim _ _
  show (k0_pay4 (F := Ideal) (blk0 m c t) (blk1 m c t) (blk6 m c t) (blk7 m c t) (blk10 m c t) (ix3 (0 : Fin 1) p j) : EReal)
    = ((((cfg0.win 12).blk t).view.read (Elt Ideal) (attrOut (arr0 m c) (arr1 m c) (arr5 m c) (arr6 m c)) : Vec Ideal S1x256x1024 .f32)
        (ix3 (0 : Fin 1) p j) : EReal)
  rw [pay12_apply, out12_read, attrOut_apply]
  unfold attrAt
  simp only [blk0_apply, blk1_apply, blk6_apply, blk7_apply, blk10_apply]

/-- The attribute array after the run. -/
theorem final12 (c : Dev nD) :
    (dats m 0 c).arrAt 12 cfg0.N = attrOut (arr0 m c) (arr1 m c) (arr5 m c) (arr6 m c) :=
  (dats m 0 c).arrAt_eq_of_cover 12 (attrOut (arr0 m c) (arr1 m c) (arr5 m c) (arr6 m c))
    (fun t _ => flushed12_eq m c t) cover12

/-! ## The relation array -/

/-- Every row below 512 is row q of half k. -/
theorem row_split (r : Fin 512) : ∃ (k : Fin 2) (q : Fin 256), r = rowOf k q :=
  ⟨⟨r.val / 256, by have := r.isLt; omega⟩, ⟨r.val % 256, Nat.mod_lt _ (by norm_num)⟩, Fin.ext (by
    show r.val = 256 * (r.val / 256) + r.val % 256
    omega)⟩

theorem half1_apply {e : EltTy} (x : Vec Ideal S1x512x1 e) (k : Fin 2) (q : Fin 256) :
    half1 x k (ix3 (0 : Fin 1) q (0 : Fin 1)) = x (ix3 (0 : Fin 1) (rowOf k q) (0 : Fin 1)) := rfl

theorem halfC_apply (x : Vec Ideal S1x512x1024 .f32) (k : Fin 2) (q : Fin 256) (j : Fin 1024) :
    halfC x k (ix3 (0 : Fin 1) q j) = x (ix3 (0 : Fin 1) (rowOf k q) j) := rfl

/-- What point t writes back to the relation array is block t of the specification's array. -/
theorem flushed13_eq (c : Dev nD) (hE : InRange (arr3 m c)) (t : Fin cfg0.N) :
    (dats m 0 c).flushed 13 t
      = ((cfg0.win 13).blk t).view.read (Elt Ideal)
          (relaOut (arr0 m c) (arr2 m c) (arr3 m c) (arr4 m c) (arr7 m c) (arr8 m c)) := by
  rw [Cert.KernelIdeal.Value.flushed13_A]
  refine funext fun (y : S1x512x1024.Idx) => ?_
  obtain ⟨z, r, j, rfl⟩ : ∃ (z : Fin 1) (r : Fin 512) (j : Fin 1024), y = ix3 z r j := ⟨y 0, y 1, y 2, eq_ix3 y⟩
  obtain rfl : z = 0 := Subsingleton.elim _ _
  obtain ⟨k, q, rfl⟩ := row_split r
  show (out0_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
        (blk0 m c t) (blk1 m c t) (blk2 m c t) (blk3 m c t) (blk4 m c t) (blk5 m c t) (blk6 m c t) (blk7 m c t) (blk8 m c t) (blk9 m c t) (blk10 m c t) (blk11 m c t)
        (ix3 (0 : Fin 1) (rowOf k q) j) : EReal)
    = ((((cfg0.win 13).blk t).view.read (Elt Ideal) (relaOut (arr0 m c) (arr2 m c) (arr3 m c) (arr4 m c) (arr7 m c) (arr8 m c)) : Vec Ideal S1x512x1024 .f32)
        (ix3 (0 : Fin 1) (rowOf k q) j) : EReal)
  rw [piece13]
  rw [pay13_apply (blk0 m c t) (blk8 m c t) (half1 (blk3 m c t) k) (half1 (blk4 m c t) k) (halfC (blk2 m c t) k) (half1 (blk5 m c t) k)
        (blk9 m c t) (blk11 m c t) q j
        (eIdx (arr3 m c (ix3 (batch t) (rowOf k q) (0 : Fin 2)))) (eIdx (arr3 m c (ix3 (batch t) (rowOf k q) (1 : Fin 2))))
        (by rw [half1_apply]; exact blk3_apply m c hE t (rowOf k q))
        (by rw [half1_apply]; exact blk4_apply m c hE t (rowOf k q))]
  rw [out13_read, relaOut_apply]
  unfold relaAt
  simp only [half1_apply, halfC_apply, blk0_apply, blk2_apply, blk5_apply, blk8_apply_lo, blk8_apply_hi, blk9_apply, blk11_apply]

/-- The relation array after the run. -/
theorem final13 (c : Dev nD) (hE : InRange (arr3 m c)) :
    (dats m 0 c).arrAt 13 cfg0.N = relaOut (arr0 m c) (arr2 m c) (arr3 m c) (arr4 m c) (arr7 m c) (arr8 m c) :=
  (dats m 0 c).arrAt_eq_of_cover 13 (relaOut (arr0 m c) (arr2 m c) (arr3 m c) (arr4 m c) (arr7 m c) (arr8 m c))
    (fun t _ => flushed13_eq m c hE t) cover13

/-! ## The run -/

/-- Every weakly fair execution of the idealized kernel program ends with its two computed results at the
    specification's arrays of the arguments, and the arguments unchanged. -/
theorem run (hE : ∀ c : Dev nD, InRange (arr3 m c)) :
    θ_run defs (onTc (τ := τ) (main (F := Ideal))) ⟨m, fun _ => 0, ρ⟩ fun r => ∀ c : Dev nD,
      r.2.mem ((c : Thread nD τ).loc main_v15_0) = attrOut (arr0 m c) (arr1 m c) (arr5 m c) (arr6 m c)
      ∧ r.2.mem ((c : Thread nD τ).loc main_v15_1) = relaOut (arr0 m c) (arr2 m c) (arr3 m c) (arr4 m c) (arr7 m c) (arr8 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final12 m c), (h c).2.1.trans (final13 m c (hE c)), (h c).2.2⟩)
    (Cert.KernelIdeal.Value.run_blocks m ρ)

end Cert.KernelIdeal.KValue

end
-- ==== Proof.RefAttr.lean ====
/-
  The reference's attribute result is the specification's.

  The reference flattens the batch ([128,256,·] → [32768,·]), joins object and attribute rows along the feature
  axis (2048 features), multiplies by the attribute weights, adds the bias, rectifies, adds the attribute row,
  and reshapes back. Row 256b + p of the flat arrays is row p of batch b; the product's sum over 2048 terms is
  the sum over the object half plus the sum over the attribute half.
-/
import proofs.«429933_j4080218931959_3_alg».proof.Proof.Gen.ReferenceIdeal.Read
import proofs.«429933_j4080218931959_3_alg».proof.Proof.Spec
import Idealize.ShloMosaic.Lib.ValueIdx
import Idealize.ShloMosaic.Lib.ValueLayout
import Idealize.ShloMosaic.Lib.Pipeline.Value

set_option maxRecDepth 16384

noncomputable section

open scoped BigOperators

namespace Cert.ReferenceIdeal.RefValue

open Cert.ReferenceIdeal Cert.ReferenceIdeal.Gen Cert.ReferenceIdeal.Read Cert.Spec
open Idealize.ShloMosaic Idealize.ShloMosaic.TcCoe Idealize.ShloMosaic.ValueIdx

/-- Row 256 b + p of the flat arrays: row p of batch b. -/
def row (b : Fin 128) (p : Fin 256) : Fin 32768 := ⟨256 * b.val + p.val, by omega⟩

/-- Entry (b, p, j) of the result is entry (256 b + p, j) of the flat array. -/
theorem idx42_eq (b : Fin 128) (p : Fin 256) (j : Fin 1024) : idx_main_v42 (ix3 b p j) = ix2 (row b p) j :=
  funext fun a => Fin.ext (by
    have hb := b.isLt; have hp := p.isLt; have hj := j.isLt
    match a with
    | ⟨0, _⟩ => show ((b.val * 256 + p.val) * 1024 + j.val) / 1024 = 256 * b.val + p.val; omega
    | ⟨1, _⟩ => show ((b.val * 256 + p.val) * 1024 + j.val) % 1024 = j.val; omega)

/-- Entry (256 b + p, k) of the flat object array is entry (b, p, k) of the object array. -/
theorem idx0_eq (b : Fin 128) (p : Fin 256) (k : Fin 1024) : idx_main_v0 (ix2 (row b p) k) = ix3 b p k :=
  funext fun a => Fin.ext (by
    have hb := b.isLt; have hp := p.isLt; have hk := k.isLt
    match a with
    | ⟨0, _⟩ => show ((256 * b.val + p.val) * 1024 + k.val) / 262144 = b.val; omega
    | ⟨1, _⟩ => show ((256 * b.val + p.val) * 1024 + k.val) / 1024 % 256 = p.val; omega
    | ⟨2, _⟩ => show ((256 * b.val + p.val) * 1024 + k.val) % 1024 = k.val; omega)

/-- The same for the flat attribute array. -/
theorem idx1_eq (b : Fin 128) (p : Fin 256) (k : Fin 1024) : idx_main_v1 (ix2 (row b p) k) = ix3 b p k :=
  funext fun a => Fin.ext (by
    have hb := b.isLt; have hp := p.isLt; have hk := k.isLt
    match a with
    | ⟨0, _⟩ => show ((256 * b.val + p.val) * 1024 + k.val) / 262144 = b.val; omega
    | ⟨1, _⟩ => show ((256 * b.val + p.val) * 1024 + k.val) / 1024 % 256 = p.val; omega
    | ⟨2, _⟩ => show ((256 * b.val + p.val) * 1024 + k.val) % 1024 = k.val; omega)

/-- The product's right factor at term k is row k, column j of the weights. -/
theorem ridx_eq (r : Fin 32768) (j : Fin 1024) (k : Fin 2048) : ridx_main_v11 (ix2 r j) k = ix2 k j :=
  funext fun a => Fin.ext (by
    match a with
    | ⟨0, _⟩ => rfl
    | ⟨1, _⟩ => rfl)

/-- The bias broadcast down the rows reads entry j of the bias. -/
theorem idx_bias_eq (r : Fin 32768) (j : Fin 1024) : idx_main_v12 (idx_main_v13 (ix2 r j)) = ix1 j :=
  funext fun a => Fin.ext (by
    match a with
    | ⟨0, _⟩ => rfl)

/-- In the first 1024 columns the joined array is the flat object array. -/
theorem v10_lo (x0 x1 : (⟨S128x256x1024, .f32⟩ : BufTy).Contents (Elt Ideal)) (r : Fin 32768) (j : Fin 1024) (k : Fin 1024) :
    val_main_v10 (F := Ideal) x0 x1 (lidx_main_v11 (ix2 r j) (lo2 k)) = val_main_v0 (F := Ideal) x0 (ix2 r k) := by
  unfold val_main_v10
  refine concatenate_pair_apply_left (t := S32768x2048) (s₁ := S32768x1024) (s₂ := S32768x1024) 1 _ _ _ _ rfl (ix2 r k) ?_
  intro a
  match a with
  | ⟨0, _⟩ => rfl
  | ⟨1, _⟩ => rfl

/-- In the last 1024 columns it is the flat attribute array. -/
theorem v10_hi (x0 x1 : (⟨S128x256x1024, .f32⟩ : BufTy).Contents (Elt Ideal)) (r : Fin 32768) (j : Fin 1024) (k : Fin 1024) :
    val_main_v10 (F := Ideal) x0 x1 (lidx_main_v11 (ix2 r j) (hi2 k)) = val_main_v1 (F := Ideal) x1 (ix2 r k) := by
  unfold val_main_v10
  refine concatenate_pair_apply_right (t := S32768x2048) (s₁ := S32768x1024) (s₂ := S32768x1024) 1 _ _ _ _ rfl rfl (ix2 r k) ?_ ?_
  · intro a ha
    match a with
    | ⟨0, _⟩ => rfl
    | ⟨1, _⟩ => exact absurd rfl ha
  · show k.val + 1024 = 1024 + k.val
    omega

/-- The reference's second result, as a function of its arguments, is the specification's attribute array. -/
theorem attr_eq (x0 x1 : (⟨S128x256x1024, .f32⟩ : BufTy).Contents (Elt Ideal)) (x5 : (⟨S2048x1024, .f32⟩ : BufTy).Contents (Elt Ideal))
    (x6 : (⟨S1024, .f32⟩ : BufTy).Contents (Elt Ideal)) :
    val_main_v42 (F := Ideal) x0 x1 x5 x6 = attrOut x0 x1 x5 x6 := by
  funext i
  obtain ⟨b, p, j, rfl⟩ : ∃ (b : Fin 128) (p : Fin 256) (j : Fin 1024), i = ix3 b p j := ⟨i 0, i 1, i 2, eq_ix3 i⟩
  rw [attrOut_apply]
  unfold attrAt
  rw [val_main_v42_apply, idx42_eq, val_main_v16_apply, val_main_v15_apply, val_main_v14_apply, val_main_v11_apply,
    val_main_v13_apply, val_main_v12_apply, idx_bias_eq, val_main_call0_v0_apply, val_main_call0_cst_apply,
    val_main_v1_apply, idx1_eq, sum_halves]
  simp only [v10_lo, v10_hi, ridx_eq, val_main_v0_apply, val_main_v1_apply, idx0_eq, idx1_eq]
  show max (((∑ k : Fin 1024, x0 (ix3 b p k) * x5 (ix2 (lo2 k) j)) + (∑ k : Fin 1024, x1 (ix3 b p k) * x5 (ix2 (hi2 k) j)))
      + x6 (ix1 j)) (Ideal.ofBits .f32 0x00000000#32) + x1 (ix3 b p j) = _
  rw [Ideal.ofBits_zero_f32]

end Cert.ReferenceIdeal.RefValue

end
-- ==== Proof.LibGatherRows.lean ====
/-
  A row-gather read at an index.

  A table of N rows and C columns is read through a column of E integer index words: result row e is the
  table's row at the e-th word, the word read as a signed integer and clamped into [0, N - 1]. The fact is
  stated for arbitrary extents, from the dimension numbers alone.
-/
import Idealize.ShloMosaic.PureOps.Ideal
import Idealize.ShloMosaic.PureOps.Ideal.Laws
import Idealize.ShloMosaic.Lib.ValueIdx
import Idealize.ShloMosaic.Lib.ValueIdxRank1

noncomputable section

open scoped BigOperators

namespace Cert.LibRows

open Idealize.ShloMosaic Idealize.ShloMosaic.ValueIdx

/-! ## Indices from coordinates are equal exactly when the coordinates are -/

/-- Two rank-2 indices built from coordinates are equal exactly when both coordinates are. -/
theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- Two rank-1 indices built from a coordinate are equal exactly when the coordinates are. -/
theorem ix1_inj {n : Nat} (a a' : Fin n) : ix1 a = ix1 a' ↔ a = a' := by
  constructor
  · intro h
    exact congrFun h 0
  · rintro rfl; rfl

/-! ## The gather -/

/-- A row gather read at (e, j): the table's entry in column j of the row the e-th start index names, that
    index read as a signed integer and clamped into [0, N - 1]. -/
theorem gather_rows {α : Type} {N E C w : Nat} (hN : 0 < N) (d : GatherDims ⟨2, ![N, C]⟩ ⟨2, ![E, 1]⟩ ⟨2, ![E, C]⟩)
    (hoff : d.offsetDims = [1]) (hcoll : d.collapsedSliceDims = [0]) (hob : d.operandBatchingDims = []) (hsb : d.startIndicesBatchingDims = [])
    (hsim : d.startIndexMap = [0]) (hivd : d.indexVectorDim = 1)
    (x : (⟨2, ![N, C]⟩ : Shape).Idx → α) (idx : IVec ⟨2, ![E, 1]⟩ w) (e : Fin E) (j : Fin C) :
    Host.gather d x idx (ix2 e j) = x (ix2 ⟨min (idx (ix2 e 0)).toInt.toNat (N - 1), by omega⟩ j) := by
  have hsl : d.sliceSizes 0 = 1 := d.slice_collapsed 0 (by rw [hcoll]; exact List.mem_singleton.mpr rfl)
  obtain ⟨od, cs, ob, sb, sim, ivd, ss, wf⟩ := d
  simp only at hoff hcoll hob hsb hsim hivd hsl
  subst hoff hcoll hob hsb hsim hivd
  unfold Host.gather
  congr 1
  funext a
  apply Fin.ext
  match a with
  | ⟨0, _⟩ =>
    -- the row axis: collapsed, so only the clamped start index counts, and the slice there has one row
    show GatherDims.start _ _ _ _ + GatherDims.batchCoord _ _ _ + GatherDims.offCoord _ _ _ = min (idx (ix2 e 0)).toInt.toNat (N - 1)
    rw [GatherDims.batchCoord_eq_zero _ _ _ List.not_mem_nil,
        GatherDims.offCoord_eq_zero _ _ _ (fun h => ((GatherDims.mem_sKept _ _).mp h).1 (List.mem_singleton.mpr rfl))]
    simp only [Nat.add_zero]
    unfold GatherDims.start
    split
    · show min (idx _).toInt.toNat (N - ss 0) = _
      rw [hsl]
      congr 3
      congr 1
      -- the start index of result (e, j) is read at (e, 0)
      funext b
      apply Fin.ext
      match b with
      | ⟨0, _⟩ => rfl
      | ⟨1, _⟩ => rfl
    · next hn => exact absurd (List.mem_singleton.mpr rfl) hn
  | ⟨1, _⟩ =>
    -- the column axis: no start index, no batching; the offset coordinate is the result's column
    show 0 + 0 + j.val = j.val
    omega

end Cert.LibRows

end
-- ==== Proof.RefRela.lean ====
/-
  The reference's relation result is the specification's, when every edge word is a row number below 256.

  The reference offsets batch b's edge words by 256b, flattens, and gathers rows of the flat object table
  (a word below zero is first shifted by the table's height; the gather clamps into the table). With words in
  [0, 256) the gathered row of flat relation row 512b + r is object row (b, word): no shift, no clamp. The
  joined row [subject, relation, object] meets the relation weights in a sum over 3072 terms: the sum of its
  three thirds. Then the bias, the rectifier, the residual, the reshape back and the mask.
-/
import proofs.«429933_j4080218931959_3_alg».proof.Proof.Gen.ReferenceIdeal.Read
import proofs.«429933_j4080218931959_3_alg».proof.Proof.Spec
import proofs.«429933_j4080218931959_3_alg».proof.Proof.LibGatherRows
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

open scoped BigOperators

namespace Cert.ReferenceIdeal.RefValue

open Cert.ReferenceIdeal Cert.ReferenceIdeal.Gen Cert.ReferenceIdeal.Read Cert.Spec
open Idealize.ShloMosaic Idealize.ShloMosaic.TcCoe Idealize.ShloMosaic.ValueIdx

open Idealize.ShloMosaic.StableHlo.Predicate Cert.LibRows

/-! ## The offset edge words -/

/-- Flat relation row 512 b + r. -/
def flatRow (b : Fin 128) (r : Fin 512) : Fin 65536 := ⟨512 * b.val + r.val, by omega⟩

/-- The offset added to batch b's edge words is 256 b. -/
theorem off_at (b : Fin 128) (r : Fin 512) (c : Fin 2) :
    val_main_v7 (F := Ideal) (ix3 b r c) = BitVec.ofNat 32 b.val * 256#32 := by
  rw [val_main_v7_apply, val_main_v6_apply, val_main_v5_apply, val_main_v3_apply, val_main_v4_apply, val_main_c_apply]
  rfl

/-- A word below 256 plus 256 b does not wrap. -/
theorem word_toNat (w0 : BitVec 32) (b : Fin 128) (h : w0.toNat < 256) :
    (w0 + BitVec.ofNat 32 b.val * 256#32).toNat = 256 * b.val + w0.toNat := by
  have hb : b.val < 128 := b.isLt
  rw [BitVec.toNat_add, BitVec.toNat_mul, BitVec.toNat_ofNat, BitVec.toNat_ofNat]
  omega

/-- The flattened offset words: row 512 b + r, column c holds edge word (b, r, c) plus 256 b. -/
theorem v9_at (x3 : (⟨S128x512x2, .i32⟩ : BufTy).Contents (Elt Ideal)) (b : Fin 128) (r : Fin 512) (c : Fin 2) :
    val_main_v9 (F := Ideal) x3 (ix2 (flatRow b r) c) = x3 (ix3 b r c) + BitVec.ofNat 32 b.val * 256#32 := by
  have e : idx_main_v9 (ix2 (flatRow b r) c) = ix3 b r c := funext fun a => Fin.ext (by
    have hb : b.val < 128 := b.isLt
    have hr : r.val < 512 := r.isLt
    have hc : c.val < 2 := c.isLt
    match a with
    | ⟨0, _⟩ => show ((512 * b.val + r.val) * 2 + c.val) / 1024 = b.val; omega
    | ⟨1, _⟩ => show ((512 * b.val + r.val) * 2 + c.val) / 2 % 512 = r.val; omega
    | ⟨2, _⟩ => show ((512 * b.val + r.val) * 2 + c.val) % 2 = c.val; omega)
  rw [val_main_v9_apply, e, val_main_v8_apply, off_at]
  rfl

/-- A non-negative word is not shifted. -/
theorem select_nonneg (w : BitVec 32) (h : w.toNat < 2 ^ 31) :
    Scalar.select (IntOp.cmpi .slt w 0#32) (IntOp.addi w 32768#32) w = w := by
  unfold Scalar.select
  rw [if_neg]
  intro hc
  have h0 := (slt_iff_toNat h (by decide)).mp hc
  simp at h0

/-- The subject's start index of flat row 512 b + r: the first edge word plus 256 b. -/
theorem v24_at (x3 : (⟨S128x512x2, .i32⟩ : BufTy).Contents (Elt Ideal)) (hE : InRange x3) (b : Fin 128) (r : Fin 512) :
    val_main_v24 (F := Ideal) x3 (ix2 (flatRow b r) (0 : Fin 1))
      = x3 (ix3 b r (0 : Fin 2)) + BitVec.ofNat 32 b.val * 256#32 := by
  have e24 : idx_main_v24 (ix2 (flatRow b r) (0 : Fin 1)) = ix1 (flatRow b r) := funext fun a => Fin.ext (by
    match a with
    | ⟨0, _⟩ => rfl)
  have e18 : idx_main_v18 (ix1 (flatRow b r)) = ix2 (flatRow b r) (0 : Fin 1) := funext fun a => Fin.ext (by
    match a with
    | ⟨0, _⟩ => show (512 * b.val + r.val) / 1 = 512 * b.val + r.val; omega
    | ⟨1, _⟩ => rfl)
  have e17 : idx_main_v17 (ix2 (flatRow b r) (0 : Fin 1)) = ix2 (flatRow b r) (0 : Fin 2) := funext fun a => Fin.ext (by
    match a with
    | ⟨0, _⟩ => rfl
    | ⟨1, _⟩ => rfl)
  have h18 : val_main_v18 (F := Ideal) x3 (ix1 (flatRow b r)) = x3 (ix3 b r (0 : Fin 2)) + BitVec.ofNat 32 b.val * 256#32 := by
    rw [val_main_v18_apply, e18, val_main_v17_apply, e17, v9_at]
  have hw := word_toNat (x3 (ix3 b r (0 : Fin 2))) b (hE _)
  have hb : b.val < 128 := b.isLt
  rw [val_main_v24_apply, e24, val_main_v23_apply, val_main_v20_apply, val_main_v22_apply, val_main_v19_apply, val_main_v21_apply,
    val_main_c_0_apply, val_main_c_1_apply, h18]
  exact select_nonneg _ (by rw [hw]; have := hE (ix3 b r (0 : Fin 2)); omega)

/-- The object's start index of flat row 512 b + r: the second edge word plus 256 b. -/
theorem v33_at (x3 : (⟨S128x512x2, .i32⟩ : BufTy).Contents (Elt Ideal)) (hE : InRange x3) (b : Fin 128) (r : Fin 512) :
    val_main_v33 (F := Ideal) x3 (ix2 (flatRow b r) (0 : Fin 1))
      = x3 (ix3 b r (1 : Fin 2)) + BitVec.ofNat 32 b.val * 256#32 := by
  have e33 : idx_main_v33 (ix2 (flatRow b r) (0 : Fin 1)) = ix1 (flatRow b r) := funext fun a => Fin.ext (by
    match a with
    | ⟨0, _⟩ => rfl)
  have e27 : idx_main_v27 (ix1 (flatRow b r)) = ix2 (flatRow b r) (0 : Fin 1) := funext fun a => Fin.ext (by
    match a with
    | ⟨0, _⟩ => show (512 * b.val + r.val) / 1 = 512 * b.val + r.val; omega
    | ⟨1, _⟩ => rfl)
  have e26 : idx_main_v26 (ix2 (flatRow b r) (0 : Fin 1)) = ix2 (flatRow b r) (1 : Fin 2) := funext fun a => Fin.ext (by
    match a with
    | ⟨0, _⟩ => rfl
    | ⟨1, _⟩ => rfl)
  have h27 : val_main_v27 (F := Ideal) x3 (ix1 (flatRow b r)) = x3 (ix3 b r (1 : Fin 2)) + BitVec.ofNat 32 b.val * 256#32 := by
    rw [val_main_v27_apply, e27, val_main_v26_apply, e26, v9_at]
  have hw := word_toNat (x3 (ix3 b r (1 : Fin 2))) b (hE _)
  have hb : b.val < 128 := b.isLt
  rw [val_main_v33_apply, e33, val_main_v32_apply, val_main_v29_apply, val_main_v31_apply, val_main_v28_apply, val_main_v30_apply,
    val_main_c_2_apply, val_main_c_3_apply, h27]
  exact select_nonneg _ (by rw [hw]; have := hE (ix3 b r (1 : Fin 2)); omega)

/-! ## The gathered rows -/

/-- A start index 256 b + s, read signed, names row s of batch b: the gathered row is that object row. -/
theorem gathered_row (x0 : (⟨S128x256x1024, .f32⟩ : BufTy).Contents (Elt Ideal)) (idx : (⟨S65536x1, .i32⟩ : BufTy).Contents (Elt Ideal))
    (e : Fin 65536) (k : Fin 1024) (b : Fin 128) (s : Fin 256)
    (h : (idx (ix2 e (0 : Fin 1))).toInt.toNat = 256 * b.val + s.val) :
    Host.gather gather_S32768x1024_S65536x1_S65536x1024_1_0_n_n_0_1_11024 (val_main_v0 (F := Ideal) x0) idx (ix2 e k)
      = x0 (ix3 b s k) := by
  rw [gather_rows (N := 32768) (E := 65536) (C := 1024) (by decide) _ rfl rfl rfl rfl rfl rfl, val_main_v0_apply]
  congr 1
  funext a
  apply Fin.ext
  have hb : b.val < 128 := b.isLt
  have hs : s.val < 256 := s.isLt
  have hk : k.val < 1024 := k.isLt
  match a with
  | ⟨0, _⟩ =>
    show (min (idx (ix2 e (0 : Fin 1))).toInt.toNat (32768 - 1) * 1024 + k.val) / 262144 = b.val
    rw [h]; omega
  | ⟨1, _⟩ =>
    show (min (idx (ix2 e (0 : Fin 1))).toInt.toNat (32768 - 1) * 1024 + k.val) / 1024 % 256 = s.val
    rw [h]; omega
  | ⟨2, _⟩ =>
    show (min (idx (ix2 e (0 : Fin 1))).toInt.toNat (32768 - 1) * 1024 + k.val) % 1024 = k.val
    rw [h]; omega

/-- An edge word below 256 plus 256 b, read signed, is 256 b plus the row the word names. -/
theorem word_toInt (w0 : BitVec 32) (b : Fin 128) (h : w0.toNat < 256) :
    (w0 + BitVec.ofNat 32 b.val * 256#32).toInt.toNat = 256 * b.val + (eIdx w0).val := by
  have hb : b.val < 128 := b.isLt
  have hw := word_toNat w0 b h
  rw [toInt_eq_toNat_of_lt (by rw [hw]; omega), Int.toNat_natCast, hw, eIdx_val h]

/-- The subject row gathered for flat row 512 b + r is object row (b, first edge word). -/
theorem v25_at (x0 : (⟨S128x256x1024, .f32⟩ : BufTy).Contents (Elt Ideal)) (x3 : (⟨S128x512x2, .i32⟩ : BufTy).Contents (Elt Ideal))
    (hE : InRange x3) (b : Fin 128) (r : Fin 512) (k : Fin 1024) :
    val_main_v25 (F := Ideal) x0 x3 (ix2 (flatRow b r) k) = x0 (ix3 b (eIdx (x3 (ix3 b r (0 : Fin 2)))) k) := by
  unfold val_main_v25
  exact gathered_row x0 _ _ k b _ (by rw [v24_at x3 hE]; exact word_toInt _ b (hE _))

/-- The object row gathered for flat row 512 b + r is object row (b, second edge word). -/
theorem v34_at (x0 : (⟨S128x256x1024, .f32⟩ : BufTy).Contents (Elt Ideal)) (x3 : (⟨S128x512x2, .i32⟩ : BufTy).Contents (Elt Ideal))
    (hE : InRange x3) (b : Fin 128) (r : Fin 512) (k : Fin 1024) :
    val_main_v34 (F := Ideal) x0 x3 (ix2 (flatRow b r) k) = x0 (ix3 b (eIdx (x3 (ix3 b r (1 : Fin 2)))) k) := by
  unfold val_main_v34
  exact gathered_row x0 _ _ k b _ (by rw [v33_at x3 hE]; exact word_toInt _ b (hE _))

/-! ## The joined row, third by third -/

/-- The first third of the joined row is the gathered subject row. -/
theorem v35_th0 (x0 : (⟨S128x256x1024, .f32⟩ : BufTy).Contents (Elt Ideal)) (x2 : (⟨S128x512x1024, .f32⟩ : BufTy).Contents (Elt Ideal))
    (x3 : (⟨S128x512x2, .i32⟩ : BufTy).Contents (Elt Ideal)) (e : Fin 65536) (k : Fin 1024) :
    val_main_v35 (F := Ideal) x0 x2 x3 (ix2 e (th0 k)) = val_main_v25 (F := Ideal) x0 x3 (ix2 e k) := by
  unfold val_main_v35
  refine concatenate_apply_piece (1 : Fin S65536x3072.rank) _ _ (ix2 e (th0 k)) 0 (by simp) S65536x1024 _ rfl rfl 0 rfl (ix2 e k) ?_ ?_
  · intro a ha
    match a with
    | ⟨0, _⟩ => rfl
    | ⟨1, _⟩ => exact absurd rfl ha
  · show 0 + k.val = k.val
    omega

/-- The middle third of the joined row is the relation row. -/
theorem v35_th1 (x0 : (⟨S128x256x1024, .f32⟩ : BufTy).Contents (Elt Ideal)) (x2 : (⟨S128x512x1024, .f32⟩ : BufTy).Contents (Elt Ideal))
    (x3 : (⟨S128x512x2, .i32⟩ : BufTy).Contents (Elt Ideal)) (e : Fin 65536) (k : Fin 1024) :
    val_main_v35 (F := Ideal) x0 x2 x3 (ix2 e (th1 k)) = val_main_v2 (F := Ideal) x2 (ix2 e k) := by
  unfold val_main_v35
  refine concatenate_apply_piece (1 : Fin S65536x3072.rank) _ _ (ix2 e (th1 k)) 1 (by simp) S65536x1024 _ rfl rfl 1024 rfl (ix2 e k) ?_ ?_
  · intro a ha
    match a with
    | ⟨0, _⟩ => rfl
    | ⟨1, _⟩ => exact absurd rfl ha
  · show 1024 + k.val = 1024 + k.val
    rfl

/-- The last third of the joined row is the gathered object row. -/
theorem v35_th2 (x0 : (⟨S128x256x1024, .f32⟩ : BufTy).Contents (Elt Ideal)) (x2 : (⟨S128x512x1024, .f32⟩ : BufTy).Contents (Elt Ideal))
    (x3 : (⟨S128x512x2, .i32⟩ : BufTy).Contents (Elt Ideal)) (e : Fin 65536) (k : Fin 1024) :
    val_main_v35 (F := Ideal) x0 x2 x3 (ix2 e (th2 k)) = val_main_v34 (F := Ideal) x0 x3 (ix2 e k) := by
  unfold val_main_v35
  refine concatenate_apply_piece (1 : Fin S65536x3072.rank) _ _ (ix2 e (th2 k)) 2 (by simp) S65536x1024 _ rfl rfl 2048 rfl (ix2 e k) ?_ ?_
  · intro a ha
    match a with
    | ⟨0, _⟩ => rfl
    | ⟨1, _⟩ => exact absurd rfl ha
  · show 2048 + k.val = 2048 + k.val
    rfl

/-- The relation row of flat row 512 b + r is relation row (b, r). -/
theorem v2_at (x2 : (⟨S128x512x1024, .f32⟩ : BufTy).Contents (Elt Ideal)) (b : Fin 128) (r : Fin 512) (k : Fin 1024) :
    val_main_v2 (F := Ideal) x2 (ix2 (flatRow b r) k) = x2 (ix3 b r k) := by
  rw [val_main_v2_apply]
  congr 1
  funext a
  apply Fin.ext
  have hb : b.val < 128 := b.isLt
  have hr : r.val < 512 := r.isLt
  have hk : k.val < 1024 := k.isLt
  match a with
  | ⟨0, _⟩ => show ((512 * b.val + r.val) * 1024 + k.val) / 524288 = b.val; omega
  | ⟨1, _⟩ => show ((512 * b.val + r.val) * 1024 + k.val) / 1024 % 512 = r.val; omega
  | ⟨2, _⟩ => show ((512 * b.val + r.val) * 1024 + k.val) % 1024 = k.val; omega

/-! ## The product with the relation weights -/

/-- The product at flat row 512 b + r, column j: the three thirds of the sum over 3072 terms. -/
theorem v36_at (x0 : (⟨S128x256x1024, .f32⟩ : BufTy).Contents (Elt Ideal)) (x2 : (⟨S128x512x1024, .f32⟩ : BufTy).Contents (Elt Ideal))
    (x3 : (⟨S128x512x2, .i32⟩ : BufTy).Contents (Elt Ideal)) (x7 : (⟨S3072x1024, .f32⟩ : BufTy).Contents (Elt Ideal))
    (hE : InRange x3) (b : Fin 128) (r : Fin 512) (j : Fin 1024) :
    val_main_v36 (F := Ideal) x0 x2 x3 x7 (ix2 (flatRow b r) j)
      = ((∑ k : Fin 1024, x0 (ix3 b (eIdx (x3 (ix3 b r (0 : Fin 2)))) k) * x7 (ix2 (th0 k) j))
          + (∑ k : Fin 1024, x2 (ix3 b r k) * x7 (ix2 (th1 k) j)))
        + (∑ k : Fin 1024, x0 (ix3 b (eIdx (x3 (ix3 b r (1 : Fin 2)))) k) * x7 (ix2 (th2 k) j)) := by
  have el : ∀ k : Fin 3072, lidx_main_v36 (ix2 (flatRow b r) j) k = ix2 (flatRow b r) k := fun k => funext fun a => Fin.ext (by
    match a with
    | ⟨0, _⟩ => rfl
    | ⟨1, _⟩ => rfl)
  have er : ∀ k : Fin 3072, ridx_main_v36 (ix2 (flatRow b r) j) k = ix2 k j := fun k => funext fun a => Fin.ext (by
    match a with
    | ⟨0, _⟩ => rfl
    | ⟨1, _⟩ => rfl)
  rw [val_main_v36_apply]
  simp only [el, er]
  rw [sum_thirds]
  simp only [v35_th0, v35_th1, v35_th2, v25_at x0 x3 hE, v34_at x0 x3 hE, v2_at]

/-- The reference's third result, as a function of its arguments, is the specification's relation array. -/
theorem rela_eq (x0 : (⟨S128x256x1024, .f32⟩ : BufTy).Contents (Elt Ideal)) (x2 : (⟨S128x512x1024, .f32⟩ : BufTy).Contents (Elt Ideal))
    (x3 : (⟨S128x512x2, .i32⟩ : BufTy).Contents (Elt Ideal)) (x4 : (⟨S128x512x1, .f32⟩ : BufTy).Contents (Elt Ideal))
    (x7 : (⟨S3072x1024, .f32⟩ : BufTy).Contents (Elt Ideal)) (x8 : (⟨S1024, .f32⟩ : BufTy).Contents (Elt Ideal))
    (hE : InRange x3) :
    val_main_v45 (F := Ideal) x0 x2 x3 x4 x7 x8 = relaOut x0 x2 x3 x4 x7 x8 := by
  funext i
  obtain ⟨b, r, j, rfl⟩ : ∃ (b : Fin 128) (r : Fin 512) (j : Fin 1024), i = ix3 b r j := ⟨i 0, i 1, i 2, eq_ix3 i⟩
  rw [relaOut_apply]
  unfold relaAt
  have e43 : idx_main_v43 (ix3 b r j) = ix2 (flatRow b r) j := funext fun a => Fin.ext (by
    have hb : b.val < 128 := b.isLt
    have hr : r.val < 512 := r.isLt
    have hj : j.val < 1024 := j.isLt
    match a with
    | ⟨0, _⟩ => show ((b.val * 512 + r.val) * 1024 + j.val) / 1024 = 512 * b.val + r.val; omega
    | ⟨1, _⟩ => show ((b.val * 512 + r.val) * 1024 + j.val) % 1024 = j.val; omega)
  have e44 : idx_main_v44 (ix3 b r j) = ix3 b r (0 : Fin 1) := funext fun a => Fin.ext (by
    match a with
    | ⟨0, _⟩ => rfl
    | ⟨1, _⟩ => rfl
    | ⟨2, _⟩ => rfl)
  have e37 : idx_main_v37 (idx_main_v38 (ix2 (flatRow b r) j)) = ix1 j := funext fun a => Fin.ext (by
    match a with
    | ⟨0, _⟩ => rfl)
  rw [val_main_v45_apply, val_main_v43_apply, val_main_v44_apply, e43, e44, val_main_v41_apply, val_main_v40_apply, val_main_v39_apply,
    val_main_v38_apply, val_main_v37_apply, e37, val_main_call1_v0_apply, val_main_call1_cst_apply, v36_at x0 x2 x3 x7 hE, v2_at]
  simp only [Ideal.addf_def, Ideal.mulf_def, Ideal.maximumf_def]
  rw [show (FloatOps.ofBits .f32 0x00000000#32 : Ideal .f32) = 0 from Ideal.ofBits_zero_f32, add_right_comm (∑ k : Fin 1024, x0 (ix3 b (eIdx (x3 (ix3 b r (0 : Fin 2)))) k) * x7 (ix2 (th0 k) j))]

end Cert.ReferenceIdeal.RefValue

end
-- ==== Proof.PreRange.lean ====
/-
  The precondition says, among other things, that every edge word is a row number below 256.

  Its last conjunct compares every word with 0 (signed, at least) and with 256 (signed, below) and reduces the
  conjunction over the whole array; a word that is at least 0 and below 256 as a signed number is below 256 as
  an unsigned one.
-/
import proofs.«429933_j4080218931959_3_alg».proof.Pre_finite_inputs
import proofs.«429933_j4080218931959_3_alg».proof.Proof.Spec
import Idealize.ShloMosaic.Lib.ValueIdx
import Idealize.ShloMosaic.Lib.ReduceAll
import Idealize.ShloMosaic.Lib.StableHlo.Predicate

set_option maxRecDepth 16384

noncomputable section

namespace Cert.PreRange

open Cert.Pre_finite_inputs Cert.Spec
open Idealize.ShloMosaic Idealize.ShloMosaic.ValueIdx

/-- The scalar shape has one index. -/
instance : Subsingleton S_.Idx := ⟨fun a b => funext fun d => d.elim0⟩

/-- A word that is at least 0 and below 256 as a signed number is below 256 as an unsigned one. -/
theorem toNat_lt_of_signed (w : BitVec 32) (h1 : IntOp.cmpi .sge w 0#32 = 1#1) (h2 : IntOp.cmpi .slt w 256#32 = 1#1) :
    w.toNat < 256 := by
  simp only [IntOp.cmpi, StableHlo.Predicate.ofBool_eq_one_iff, BitVec.sle, BitVec.slt, decide_eq_true_eq] at h1 h2
  have e0 : (0#32 : BitVec 32).toInt = 0 := by decide
  have e256 : (256#32 : BitVec 32).toInt = 256 := by decide
  rw [e0] at h1
  rw [e256] at h2
  rw [BitVec.toInt_eq_toNat_cond] at h1 h2
  have hw := w.isLt
  split at h1 <;> omega

/-- From the precondition's value at the arguments: the edge words are in range. -/
theorem inRange_of_pre [Cert.Pre_finite_inputs.Facts]
    (a0 a1 : FVec Ideal S128x256x1024 .f32) (a2 : FVec Ideal S128x512x1024 .f32) (a3 : IVec S128x512x2 32)
    (a4 : FVec Ideal S128x512x1 .f32) (a5 : FVec Ideal S2048x1024 .f32) (a6 : FVec Ideal S1024 .f32)
    (a7 : FVec Ideal S3072x1024 .f32) (a8 : FVec Ideal S1024 .f32)
    (h : Cert.Pre_finite_inputs.fn (F := Ideal) a0 a1 a2 a3 a4 a5 a6 a7 a8 = fun _ => 1#1) :
    InRange a3 := by
  -- the value at the one index of the scalar result; its last conjunct is the all-reduction over the edge words
  have h0 := congrFun h ValueIdx.ix0
  dsimp only [fn, fn_part1, fn_part2] at h0
  have h1 := (IntOp.andi_eq_one.1 h0).2
  intro i
  -- every element of the reduced array is 1: both comparisons hold at i
  have h2 := Host.reduce_andi_all _ _ _ _ _ h1 i
  obtain ⟨h3, h4⟩ := IntOp.andi_eq_one.1 h2
  -- a broadcast scalar constant reads as the constant at every index
  have b0 : broadcastInDim S128x512x2 ![] Facts.bcast_S_S128x512x2 (constantI S_ 32 0#32) i = 0#32 :=
    StableHlo.Predicate.bcast_scalar _ Facts.h_S_ _ i
  have b256 : broadcastInDim S128x512x2 ![] Facts.bcast_S_S128x512x2 (constantI S_ 32 256#32) i = 256#32 :=
    StableHlo.Predicate.bcast_scalar _ Facts.h_S_ _ i
  refine toNat_lt_of_signed (a3 i) ?_ ?_
  · rw [← b0]; exact h3
  · rw [← b256]; exact h4

end Cert.PreRange

end
-- ==== Proof.lean ====
/-
  One fused kernel per batch — a linear layer with rectifier and residual on [object, attribute] rows, and the
  same on [subject, relation, object] rows with the subject and object rows picked by edge words, masked —
  computes, over the extended reals, what the plain reference computes on the flattened batch.

  The precondition keeps every float input finite and every edge word a row number below 256: the reference
  adds 256·(batch) to a word and reads the flattened object table there, which is the named row of the word's
  own batch exactly when the word is below 256. Neither program's arithmetic needs finiteness: the two sides
  differ by the grouping of finite sums (a 2048-term and a 3072-term product against their halves and thirds),
  by the order of two matrix products around a row selection (a sum against an indicator picks one term, and
  0 · x = 0 for every extended real), and by changes of float format, which are the identity here.

  The three frames: the two kernel programs by their launch-and-body certificates, the reference by its run
  with the results dropped. The idealization rewrote no operation, so nothing is owed for it. The equivalence
  sets the kernel's run, re-posted at the specification's two arrays, beside the reference's run, whose two
  result terms are the same arrays of arguments that agree.
-/
import proofs.«429933_j4080218931959_3_alg».proof.Defs
import proofs.«429933_j4080218931959_3_alg».proof.Proof.Gen.Kernel
import proofs.«429933_j4080218931959_3_alg».proof.Proof.Gen.Kernel.Skeleton
import proofs.«429933_j4080218931959_3_alg».proof.Proof.Gen.Kernel.Loops
import proofs.«429933_j4080218931959_3_alg».proof.Proof.Gen.Kernel.Launch
import proofs.«429933_j4080218931959_3_alg».proof.Proof.Gen.Kernel.Points
import proofs.«429933_j4080218931959_3_alg».proof.Proof.Gen.Kernel.Frame
import proofs.«429933_j4080218931959_3_alg».proof.Proof.Gen.KernelIdeal
import proofs.«429933_j4080218931959_3_alg».proof.Proof.Gen.KernelIdeal.Skeleton
import proofs.«429933_j4080218931959_3_alg».proof.Proof.Gen.KernelIdeal.Loops
import proofs.«429933_j4080218931959_3_alg».proof.Proof.Gen.KernelIdeal.Launch
import proofs.«429933_j4080218931959_3_alg».proof.Proof.Gen.KernelIdeal.Points
import proofs.«429933_j4080218931959_3_alg».proof.Proof.Gen.KernelIdeal.Frame
import proofs.«429933_j4080218931959_3_alg».proof.Proof.Gen.ReferenceIdeal
import proofs.«429933_j4080218931959_3_alg».proof.Proof.Gen.Pre_finite_inputs
import proofs.«429933_j4080218931959_3_alg».proof.Proof.Gen.KernelIdeal.Value
import proofs.«429933_j4080218931959_3_alg».proof.Proof.Gen.ReferenceIdeal.Run
import proofs.«429933_j4080218931959_3_alg».proof.Proof.Gen.ReferenceIdeal.Read
import proofs.«429933_j4080218931959_3_alg».proof.Proof.Spec
import proofs.«429933_j4080218931959_3_alg».proof.Proof.KValue
import proofs.«429933_j4080218931959_3_alg».proof.Proof.RefAttr
import proofs.«429933_j4080218931959_3_alg».proof.Proof.RefRela
import proofs.«429933_j4080218931959_3_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- Both idealized programs end with the unchanged object array, the specification's attribute array and the
    specification's relation array of arguments that agree. -/
theorem algebraic : Cert.algebraic_KernelIdeal_ReferenceIdeal := by
  intro m ρ m' ρ' hpre hagree
  have hE : ∀ c : Dev Cert.KernelIdeal.nD, Cert.Spec.InRange (Cert.KernelIdeal.Host.arr3 m c) := fun c =>
    Cert.PreRange.inRange_of_pre _ _ _ _ _ _ _ _ _ (hpre c)
  refine ⟨fun c => m ((c.tc : Thread Cert.KernelIdeal.nD Cert.KernelIdeal.τ).loc Cert.KernelIdeal.main_arg0),
    fun c => Cert.Spec.attrOut (Cert.KernelIdeal.Host.arr0 m c) (Cert.KernelIdeal.Host.arr1 m c) (Cert.KernelIdeal.Host.arr5 m c) (Cert.KernelIdeal.Host.arr6 m c),
    fun c => Cert.Spec.relaOut (Cert.KernelIdeal.Host.arr0 m c) (Cert.KernelIdeal.Host.arr2 m c) (Cert.KernelIdeal.Host.arr3 m c)
      (Cert.KernelIdeal.Host.arr4 m c) (Cert.KernelIdeal.Host.arr7 m c) (Cert.KernelIdeal.Host.arr8 m c), ?_, ?_⟩
  · exact (θ_run Cert.KernelIdeal.defs _ _).mono (fun r h c => ⟨(h c).2.2.1, (h c).1, (h c).2.1, (h c).2.2⟩)
      (Cert.KernelIdeal.KValue.run m ρ hE)
  · refine (θ_run Cert.ReferenceIdeal.defs _ _).mono (fun r h c => ⟨?_, ?_, ?_, (h c).2.2.2⟩)
      (Cert.ReferenceIdeal.Value.run (F := Ideal) m' ρ')
    · rw [(h c).1, (hagree c).1]
    · rw [(h c).2.1, Cert.ReferenceIdeal.Read.val_main_v42_eq, Cert.ReferenceIdeal.RefValue.attr_eq,
        (hagree c).1, (hagree c).2.1, (hagree c).2.2.2.2.2.1, (hagree c).2.2.2.2.2.2.1]
    · rw [(h c).2.2.1, Cert.ReferenceIdeal.Read.val_main_v45_eq, (hagree c).1, (hagree c).2.2.1, (hagree c).2.2.2.1,
        (hagree c).2.2.2.2.1, (hagree c).2.2.2.2.2.2.2.1, (hagree c).2.2.2.2.2.2.2.2]
      exact Cert.ReferenceIdeal.RefValue.rela_eq _ _ _ _ _ _ (hE c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
